-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x32 : Shape := ⟨3, ![32768, 2, 32]⟩
abbrev S256x16 : Shape := ⟨2, ![256, 16]⟩
abbrev S16x16 : Shape := ⟨2, ![16, 16]⟩
abbrev S16 : Shape := ⟨1, ![16]⟩
abbrev S_ : Shape := ⟨0, ![]⟩

class Facts : Prop where
  bcast_S_S256x16 : S_.BroadcastsInDim S256x16 (![] : Fin 0 → Fin S256x16.rank)
  reducesTo_S256x16_S_d0_1 : S256x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S32768x2x32 : S_.BroadcastsInDim S32768x2x32 (![] : Fin 0 → Fin S32768x2x32.rank)
  reducesTo_S32768x2x32_S_d0_1_2 : S32768x2x32.ReducesTo [0, 1, 2] S_

variable [Facts]

def fn_part2 {F : FTy → Type} [FloatOps F] (main_arg0 : IVec S32768x2x32 32) (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_c_14 : IVec S_ 32 := constantI S_ 32 0#32
  let main_v39 : IVec S32768x2x32 32 := broadcastInDim S32768x2x32 ![] bcast_S_S32768x2x32 main_c_14
  let main_v40 : IVec S32768x2x32 1 := cmpi .sge main_arg0 main_v39
  let main_c_15 : IVec S_ 32 := constantI S_ 32 256#32
  let main_v41 : IVec S32768x2x32 32 := broadcastInDim S32768x2x32 ![] bcast_S_S32768x2x32 main_c_15
  let main_v42 : IVec S32768x2x32 1 := cmpi .slt main_arg0 main_v41
  let main_v43 : IVec S32768x2x32 1 := andi main_v40 main_v42
  let main_c_16 : IVec S_ 1 := constantI S_ 1 1#1
  let main_v44 : IVec S_ 1 := (fun x v => Host.reduce IntOp.andi x v reducesTo_S32768x2x32_S_d0_1_2 h_S_) main_v43 main_c_16
  let main_v45 : IVec S_ 1 := andi main_v38 main_v44
  main_v45

def fn_part1 {F : FTy → Type} [FloatOps F] (main_arg0 : IVec S32768x2x32 32) (main_arg5 : FVec F S16x16 .f32) (main_arg6 : FVec F S16 .f32) (main_arg7 : FVec F S16x16 .f32) (main_arg8 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg0 main_arg8 main_v33

def fn {F : FTy → Type} [FloatOps F] (main_arg0 : IVec S32768x2x32 32) (main_arg1 : FVec F S256x16 .f32) (main_arg2 : FVec F S16x16 .f32) (main_arg3 : FVec F S16x16 .f32) (main_arg4 : FVec F S16x16 .f32) (main_arg5 : FVec F S16x16 .f32) (main_arg6 : FVec F S16 .f32) (main_arg7 : FVec F S16x16 .f32) (main_arg8 : FVec F S16 .f32) : IVec S_ 1 :=
  let main_v0 : FVec F S256x16 .f32 := Host.absf main_arg1
  let main_cst : FVec F S_ .f32 := constant S_ .f32 0x7F800000#32
  let main_v1 : FVec F S256x16 .f32 := broadcastInDim S256x16 ![] bcast_S_S256x16 main_cst
  let main_v2 : IVec S256x16 1 := cmpf .olt main_v0 main_v1
  let main_c : IVec S_ 1 := constantI S_ 1 1#1
  let main_v3 : IVec S_ 1 := (fun x v => Host.reduce IntOp.andi x v reducesTo_S256x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg0 main_arg5 main_arg6 main_arg7 main_arg8 main_v13 main_v16
-- ==== Kernel.lean ====
abbrev S32768x2x32 : Shape := ⟨3, ![32768, 2, 32]⟩
abbrev S256x16 : Shape := ⟨2, ![256, 16]⟩
abbrev S16x16 : Shape := ⟨2, ![16, 16]⟩
abbrev S16 : Shape := ⟨1, ![16]⟩
abbrev S32768 : Shape := ⟨1, ![32768]⟩
abbrev S128x2x32 : Shape := ⟨3, ![128, 2, 32]⟩
abbrev S128 : Shape := ⟨1, ![128]⟩
abbrev S128x2x32x256 : Shape := ⟨4, ![128, 2, 32, 256]⟩
abbrev S128x2x32x1 : Shape := ⟨4, ![128, 2, 32, 1]⟩
abbrev S8192x256 : Shape := ⟨2, ![8192, 256]⟩
abbrev S8192x16 : Shape := ⟨2, ![8192, 16]⟩
abbrev S256x32x16 : Shape := ⟨3, ![256, 32, 16]⟩
abbrev S256x32x32 : Shape := ⟨3, ![256, 32, 32]⟩
abbrev S256x32 : Shape := ⟨2, ![256, 32]⟩
abbrev S256x32x1 : Shape := ⟨3, ![256, 32, 1]⟩
abbrev S1x16 : Shape := ⟨2, ![1, 16]⟩
abbrev S128x2x16 : Shape := ⟨3, ![128, 2, 16]⟩
abbrev S128x1x16 : Shape := ⟨3, ![128, 1, 16]⟩
abbrev S128x16 : Shape := ⟨2, ![128, 16]⟩

abbrev nBuf : Space → Nat
  | .hbm => 10
  | .vmem => 12
  | .smem => 0
  | _ => 0

abbrev bufTy : (tb : Table) → Fin (tcTables nBuf tb) → BufTy
  | .hbm, ⟨0, _⟩ => ⟨S32768x2x32, .i32⟩
  | .hbm, ⟨1, _⟩ => ⟨S256x16, .f32⟩
  | .hbm, ⟨2, _⟩ => ⟨S16x16, .f32⟩
  | .hbm, ⟨3, _⟩ => ⟨S16x16, .f32⟩
  | .hbm, ⟨4, _⟩ => ⟨S16x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S32768, .f32⟩
  | .local _ .vmem, ⟨0, _⟩ => ⟨S128x2x32, .i32⟩
  | .local _ .vmem, ⟨1, _⟩ => ⟨S128x2x32, .i32⟩
  | .local _ .vmem, ⟨2, _⟩ => ⟨S256x16, .f32⟩
  | .local _ .vmem, ⟨3, _⟩ => ⟨S16x16, .f32⟩
  | .local _ .vmem, ⟨4, _⟩ => ⟨S16x16, .f32⟩
  | .local _ .vmem, ⟨5, _⟩ => ⟨S16x16, .f32⟩
  | .local _ .vmem, ⟨6, _⟩ => ⟨S16x16, .f32⟩
  | .local _ .vmem, ⟨7, _⟩ => ⟨S16, .f32⟩
  | .local _ .vmem, ⟨8, _⟩ => ⟨S16x16, .f32⟩
  | .local _ .vmem, ⟨9, _⟩ => ⟨S16, .f32⟩
  | .local _ .vmem, ⟨10, _⟩ => ⟨S128, .f32⟩
  | .local _ .vmem, ⟨11, _⟩ => ⟨S128, .f32⟩
  | _, _ => ⟨S32768x2x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x2x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S128x2x32_S128x2x32_0_0_0 : ∀ a, (![0, 0, 0] : Fin 3 → Nat) a + S128x2x32.size a ≤ S128x2x32.size a
  h_S128x2x32 : 0 < S128x2x32.numel
  iota_S128x2x32x256_d3_w32 : S128x2x32x256.Iotas .tc 32 [3]
  shapeCasts_S128x2x32_S128x2x32x1 : S128x2x32.ShapeCasts S128x2x32x1
  broadcasts_S128x2x32x1_S128x2x32x256 : S128x2x32x1.Broadcasts S128x2x32x256
  natLt_1_32 : 1 < 32
  bitsLt_bf16_f32 : FTy.bits .bf16 < FTy.bits .f32
  shapeCasts_S128x2x32x256_S8192x256 : S128x2x32x256.ShapeCasts S8192x256
  inb_S256x16_S256x16_0_0 : ∀ a, (![0, 0] : Fin 2 → Nat) a + S256x16.size a ≤ S256x16.size a
  h_S256x16 : 0 < S256x16.numel
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  shapeCasts_S8192x16_S256x32x16 : S8192x16.ShapeCasts S256x32x16
  reduces_S256x32x32_S256x32 : S256x32x32.Reduces [2] S256x32
  shapeCasts_S256x32_S256x32x1 : S256x32.ShapeCasts S256x32x1
  broadcasts_S256x32x1_S256x32x32 : S256x32x1.Broadcasts S256x32x32
  shapeCasts_S256x32x16_S8192x16 : S256x32x16.ShapeCasts S8192x16
  inb_S16_S16_0 : ∀ a, (![0] : Fin 1 → Nat) a + S16.size a ≤ S16.size a
  h_S16 : 0 < S16.numel
  shapeCasts_S16_S1x16 : S16.ShapeCasts S1x16
  broadcasts_S1x16_S8192x16 : S1x16.Broadcasts S8192x16
  reduces_S256x32x16_S256x16 : S256x32x16.Reduces [1] S256x16
  shapeCasts_S256x16_S128x2x16 : S256x16.ShapeCasts S128x2x16
  slices_S128x2x16_o0_0_0_S128x1x16 : S128x2x16.Slices ![0, 0, 0] S128x1x16
  shapeCasts_S128x1x16_S128x16 : S128x1x16.ShapeCasts S128x16
  slices_S128x2x16_o0_1_0_S128x1x16 : S128x2x16.Slices ![0, 1, 0] S128x1x16
  reduces_S128x16_S128 : S128x16.Reduces [1] S128
  inb_S128_S128_0 : ∀ a, (![0] : Fin 1 → Nat) a + S128.size a ≤ S128.size a
  h_S128 : 0 < S128.numel
  dot_S8192x256_S256x16_S8192x16_1_0_0_1_n_n_wf : DotDims.WF S8192x256 S256x16 S8192x16 [1] [0] [0] [1] [] []
  dot_S8192x16_S16x16_S8192x16_1_0_0_1_n_n_wf : DotDims.WF S8192x16 S16x16 S8192x16 [1] [0] [0] [1] [] []
  dot_S256x32x16_S256x32x16_S256x32x32_2_2_1_1_0_0_wf : DotDims.WF S256x32x16 S256x32x16 S256x32x32 [2] [2] [1] [1] [0] [0]
  dot_S256x32x32_S256x32x16_S256x32x16_2_1_1_2_0_0_wf : DotDims.WF S256x32x32 S256x32x16 S256x32x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x32.size a ≤ S32768x2x32.size a
  hwx0_0 : ∀ i : grid0.Coords, EltTy.bits .i32 = 32 ∨ (Rect.block (s := S32768x2x32) S128x2x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S32768.size a
  hwx0_9 : ∀ i : grid0.Coords, EltTy.bits .f32 = 32 ∨ (Rect.block (s := S32768) S128.size (cc0_transform_9 i) (hinb0_9 i)).WholeWords (EltTy.packing .f32)

variable [Facts₀]

def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S256x32x16_S256x32x16_S256x32x32_2_2_1_1_0_0 : DotDims S256x32x16 S256x32x16 S256x32x32 where
  lhsContracting := [2]
  rhsContracting := [2]
  lhsNonContracting := [1]
  rhsNonContracting := [1]
  lhsBatch := [0]
  rhsBatch := [0]
  wf := dot_S256x32x16_S256x32x16_S256x32x32_2_2_1_1_0_0_wf
def dot_S256x32x32_S256x32x16_S256x32x16_2_1_1_2_0_0 : DotDims S256x32x32 S256x32x16 S256x32x16 where
  lhsContracting := [2]
  rhsContracting := [1]
  lhsNonContracting := [1]
  rhsNonContracting := [2]
  lhsBatch := [0]
  rhsBatch := [0]
  wf := dot_S256x32x32_S256x32x16_S256x32x16_2_1_1_2_0_0_wf

abbrev win0_0 : Pipeline.Window sig grid0 :=
  Pipeline.Window.ofSpec (Memref.whole main_arg0) S128x2x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x2x32 : Shape := ⟨3, ![32768, 2, 32]⟩
abbrev S256x16 : Shape := ⟨2, ![256, 16]⟩
abbrev S16x16 : Shape := ⟨2, ![16, 16]⟩
abbrev S16 : Shape := ⟨1, ![16]⟩
abbrev S_ : Shape := ⟨0, ![]⟩
abbrev S32768x2x32x1 : Shape := ⟨4, ![32768, 2, 32, 1]⟩
abbrev S32768x2x32x16 : Shape := ⟨4, ![32768, 2, 32, 16]⟩
abbrev S32768x2x32x32 : Shape := ⟨4, ![32768, 2, 32, 32]⟩
abbrev S1x1x1x16 : Shape := ⟨4, ![1, 1, 1, 16]⟩
abbrev S32768x2x16 : Shape := ⟨3, ![32768, 2, 16]⟩
abbrev S32768x1x16 : Shape := ⟨3, ![32768, 1, 16]⟩
abbrev S32768x16 : Shape := ⟨2, ![32768, 16]⟩
abbrev S32768 : Shape := ⟨1, ![32768]⟩

abbrev nBuf : Space → Nat
  | .hbm => 82
  | .vmem => 0
  | .smem => 0
  | _ => 0

abbrev bufTy : (tb : Table) → Fin (tcTables nBuf tb) → BufTy
  | .hbm, ⟨0, _⟩ => ⟨S32768x2x32, .i32⟩
  | .hbm, ⟨1, _⟩ => ⟨S256x16, .f32⟩
  | .hbm, ⟨2, _⟩ => ⟨S16x16, .f32⟩
  | .hbm, ⟨3, _⟩ => ⟨S16x16, .f32⟩
  | .hbm, ⟨4, _⟩ => ⟨S16x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S_, .i32⟩
  | .hbm, ⟨10, _⟩ => ⟨S32768x2x32, .i32⟩
  | .hbm, ⟨11, _⟩ => ⟨S32768x2x32, .i1⟩
  | .hbm, ⟨12, _⟩ => ⟨S_, .i32⟩
  | .hbm, ⟨13, _⟩ => ⟨S32768x2x32, .i32⟩
  | .hbm, ⟨14, _⟩ => ⟨S32768x2x32, .i32⟩
  | .hbm, ⟨15, _⟩ => ⟨S32768x2x32, .i32⟩
  | .hbm, ⟨16, _⟩ => ⟨S32768x2x32x1, .i32⟩
  | .hbm, ⟨17, _⟩ => ⟨S32768x2x32x16, .f32⟩
  | .hbm, ⟨18, _⟩ => ⟨S32768x2x32x16, .f32⟩
  | .hbm, ⟨19, _⟩ => ⟨S32768x2x32x16, .f32⟩
  | .hbm, ⟨20, _⟩ => ⟨S32768x2x32x16, .f32⟩
  | .hbm, ⟨21, _⟩ => ⟨S32768x2x32x32, .f32⟩
  | .hbm, ⟨22, _⟩ => ⟨S_, .f32⟩
  | .hbm, ⟨23, _⟩ => ⟨S32768x2x32x32, .f32⟩
  | .hbm, ⟨24, _⟩ => ⟨S32768x2x32x32, .f32⟩
  | .hbm, ⟨25, _⟩ => ⟨S_, .f32⟩
  | .hbm, ⟨26, _⟩ => ⟨S32768x2x32, .f32⟩
  | .hbm, ⟨27, _⟩ => ⟨S_, .f32⟩
  | .hbm, ⟨28, _⟩ => ⟨S32768x2x32, .f32⟩
  | .hbm, ⟨29, _⟩ => ⟨S32768x2x32, .f32⟩
  | .hbm, ⟨30, _⟩ => ⟨S32768x2x32x1, .f32⟩
  | .hbm, ⟨31, _⟩ => ⟨S32768x2x32x32, .f32⟩
  | .hbm, ⟨32, _⟩ => ⟨S32768x2x32x32, .f32⟩
  | .hbm, ⟨33, _⟩ => ⟨S32768x2x32x32, .f32⟩
  | .hbm, ⟨34, _⟩ => ⟨S_, .f32⟩
  | .hbm, ⟨35, _⟩ => ⟨S32768x2x32, .f32⟩
  | .hbm, ⟨36, _⟩ => ⟨S32768x2x32x1, .f32⟩
  | .hbm, ⟨37, _⟩ => ⟨S32768x2x32x32, .f32⟩
  | .hbm, ⟨38, _⟩ => ⟨S32768x2x32x32, .f32⟩
  | .hbm, ⟨39, _⟩ => ⟨S32768x2x32x16, .f32⟩
  | .hbm, ⟨40, _⟩ => ⟨S32768x2x32x16, .f32⟩
  | .hbm, ⟨41, _⟩ => ⟨S1x1x1x16, .f32⟩
  | .hbm, ⟨42, _⟩ => ⟨S32768x2x32x16, .f32⟩
  | .hbm, ⟨43, _⟩ => ⟨S32768x2x32x16, .f32⟩
  | .hbm, ⟨44, _⟩ => ⟨S_, .f32⟩
  | .hbm, ⟨45, _⟩ => ⟨S32768x2x32x16, .f32⟩
  | .hbm, ⟨46, _⟩ => ⟨S32768x2x32x16, .f32⟩
  | .hbm, ⟨47, _⟩ => ⟨S32768x2x32x16, .f32⟩
  | .hbm, ⟨48, _⟩ => ⟨S1x1x1x16, .f32⟩
  | .hbm, ⟨49, _⟩ => ⟨S32768x2x32x16, .f32⟩
  | .hbm, ⟨50, _⟩ => ⟨S32768x2x32x16, .f32⟩
  | .hbm, ⟨51, _⟩ => ⟨S_, .f32⟩
  | .hbm, ⟨52, _⟩ => ⟨S32768x2x16, .f32⟩
  | .hbm, ⟨53, _⟩ => ⟨S_, .f32⟩
  | .hbm, ⟨54, _⟩ => ⟨S32768x2x16, .f32⟩
  | .hbm, ⟨55, _⟩ => ⟨S32768x2x16, .f32⟩
  | .hbm, ⟨56, _⟩ => ⟨S32768x1x16, .f32⟩
  | .hbm, ⟨57, _⟩ => ⟨S32768x16, .f32⟩
  | .hbm, ⟨58, _⟩ => ⟨S32768x1x16, .f32⟩
  | .hbm, ⟨59, _⟩ => ⟨S32768x16, .f32⟩
  | .hbm, ⟨60, _⟩ => ⟨S32768x16, .f32⟩
  | .hbm, ⟨61, _⟩ => ⟨S_, .f32⟩
  | .hbm, ⟨62, _⟩ => ⟨S32768, .f32⟩
  | .hbm, ⟨63, _⟩ => ⟨S32768x16, .f32⟩
  | .hbm, ⟨64, _⟩ => ⟨S_, .f32⟩
  | .hbm, ⟨65, _⟩ => ⟨S32768, .f32⟩
  | .hbm, ⟨66, _⟩ => ⟨S32768, .f32⟩
  | .hbm, ⟨67, _⟩ => ⟨S32768x16, .f32⟩
  | .hbm, ⟨68, _⟩ => ⟨S_, .f32⟩
  | .hbm, ⟨69, _⟩ => ⟨S32768, .f32⟩
  | .hbm, ⟨70, _⟩ => ⟨S32768, .f32⟩
  | .hbm, ⟨71, _⟩ => ⟨S32768, .f32⟩
  | .hbm, ⟨72, _⟩ => ⟨S_, .f32⟩
  | .hbm, ⟨73, _⟩ => ⟨S32768, .f32⟩
  | .hbm, ⟨74, _⟩ => ⟨S32768, .f32⟩
  | .hbm, ⟨75, _⟩ => ⟨S32768, .f32⟩
  | .hbm, ⟨76, _⟩ => ⟨S_, .f32⟩
  | .hbm, ⟨77, _⟩ => ⟨S32768, .f32⟩
  | .hbm, ⟨78, _⟩ => ⟨S32768, .f32⟩
  | .hbm, ⟨79, _⟩ => ⟨S_, .f32⟩
  | .hbm, ⟨80, _⟩ => ⟨S32768, .f32⟩
  | .hbm, ⟨81, _⟩ => ⟨S32768, .f32⟩
  | _, _ => ⟨S32768x2x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_call1_v0 : Ref sig .tc := ⟨.hbm, 63, rfl⟩
abbrev main_call1_cst : Ref sig .tc := ⟨.hbm, 64, rfl⟩
abbrev main_call1_v1 : Ref sig .tc := ⟨.hbm, 65, rfl⟩
abbrev main_v43 : Ref sig .tc := ⟨.hbm, 66, rfl⟩
abbrev main_call2_v0 : Ref sig .tc := ⟨.hbm, 67, rfl⟩
abbrev main_call2_cst : Ref sig .tc := ⟨.hbm, 68, rfl⟩
abbrev main_call2_v1 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  bcast_S_S32768x2x32 : S_.BroadcastsInDim S32768x2x32 (![] : Fin 0 → Fin S32768x2x32.rank)
  bcast_S32768x2x32_S32768x2x32x1_0_1_2 : S32768x2x32.BroadcastsInDim S32768x2x32x1 (![0, 1, 2] : Fin 3 → Fin S32768x2x32x1.rank)
  bcast_S_S32768x2x32x32 : S_.BroadcastsInDim S32768x2x32x32 (![] : Fin 0 → Fin S32768x2x32x32.rank)
  reducesTo_S32768x2x32x32_S32768x2x32_d3 : S32768x2x32x32.ReducesTo [3] S32768x2x32
  h_S_ : 0 < S_.numel
  bcast_S32768x2x32x1_S32768x2x32x32_0_1_2_3 : S32768x2x32x1.BroadcastsInDim S32768x2x32x32 (![0, 1, 2, 3] : Fin 4 → Fin S32768x2x32x32.rank)
  bcast_S16_S1x1x1x16_3 : S16.BroadcastsInDim S1x1x1x16 (![3] : Fin 1 → Fin S1x1x1x16.rank)
  bcast_S1x1x1x16_S32768x2x32x16_0_1_2_3 : S1x1x1x16.BroadcastsInDim S32768x2x32x16 (![0, 1, 2, 3] : Fin 4 → Fin S32768x2x32x16.rank)
  bcast_S_S32768x2x32x16 : S_.BroadcastsInDim S32768x2x32x16 (![] : Fin 0 → Fin S32768x2x32x16.rank)
  reducesTo_S32768x2x32x16_S32768x2x16_d2 : S32768x2x32x16.ReducesTo [2] S32768x2x16
  bcast_S_S32768x2x16 : S_.BroadcastsInDim S32768x2x16 (![] : Fin 0 → Fin S32768x2x16.rank)
  slices_S32768x2x16_S32768x1x16_0_0_0 : S32768x2x16.Slices ![0, 0, 0] S32768x1x16
  shapeCasts_S32768x1x16_S32768x16 : S32768x1x16.ShapeCasts S32768x16
  slices_S32768x2x16_S32768x1x16_0_1_0 : S32768x2x16.Slices ![0, 1, 0] S32768x1x16
  reducesTo_S32768x16_S32768_d1 : S32768x16.ReducesTo [1] S32768
  bcast_S_S32768 : S_.BroadcastsInDim S32768 (![] : Fin 0 → Fin S32768.rank)
  gather_S256x16_S32768x2x32x1_S32768x2x32x16_3_0_n_n_0_3_116_wf : GatherDims.WF S256x16 S32768x2x32x1 S32768x2x32x16 [3] [0] [] [0] [] 3 ![1, 16]
  dot_S32768x2x32x16_S16x16_S32768x2x32x16_3_1_012_0_n_n_wf : DotDims.WF S32768x2x32x16 S16x16 S32768x2x32x16 [3] [1] [0, 1, 2] [0] [] []
  dot_S32768x2x32x16_S32768x2x32x16_S32768x2x32x32_3_3_2_2_01_01_wf : DotDims.WF S32768x2x32x16 S32768x2x32x16 S32768x2x32x32 [3] [3] [2] [2] [0, 1] [0, 1]
  dot_S32768x2x32x32_S32768x2x32x16_S32768x2x32x16_3_2_2_3_01_01_wf : DotDims.WF S32768x2x32x32 S32768x2x32x16 S32768x2x32x16 [3] [2] [2] [3] [0, 1] [0, 1]

variable [Facts₀]

def gather_S256x16_S32768x2x32x1_S32768x2x32x16_3_0_n_n_0_3_116 : GatherDims S256x16 S32768x2x32x1 S32768x2x32x16 where
  offsetDims := [3]
  collapsedSliceDims := [0]
  operandBatchingDims := []
  startIndicesBatchingDims := []
  startIndexMap := [0]
  indexVectorDim := 3
  sliceSizes := ![1, 16]
  wf := gather_S256x16_S32768x2x32x1_S32768x2x32x16_3_0_n_n_0_3_116_wf
def dot_S32768x2x32x16_S16x16_S32768x2x32x16_3_1_012_0_n_n : DotDims S32768x2x32x16 S16x16 S32768x2x32x16 where
  lhsContracting := [3]
  rhsContracting := [1]
  lhsNonContracting := [0, 1, 2]
  rhsNonContracting := [0]
  lhsBatch := []
  rhsBatch := []
  wf := dot_S32768x2x32x16_S16x16_S32768x2x32x16_3_1_012_0_n_n_wf
def dot_S32768x2x32x16_S32768x2x32x16_S32768x2x32x32_3_3_2_2_01_01 : DotDims S32768x2x32x16 S32768x2x32x16 S32768x2x32x32 where
  lhsContracting := [3]
  rhsContracting := [3]
  lhsNonContracting := [2]
  rhsNonContracting := [2]
  lhsBatch := [0, 1]
  rhsBatch := [0, 1]
  wf := dot_S32768x2x32x16_S32768x2x32x16_S32768x2x32x32_3_3_2_2_01_01_wf
def dot_S32768x2x32x32_S32768x2x32x16_S32768x2x32x16_3_2_2_3_01_01 : DotDims S32768x2x32x32 S32768x2x32x16 S32768x2x32x16 where
  lhsContracting := [3]
  rhsContracting := [2]
  lhsNonContracting := [2]
  rhsNonContracting := [3]
  lhsBatch := [0, 1]
  rhsBatch := [0, 1]
  wf := dot_S32768x2x32x32_S32768x2x32x16_S32768x2x32x16_3_2_2_3_01_01_wf

class Facts : Prop extends Facts₀ where

variable [Facts]
-- ==== Proof.PreTok.lean ====
import proofs.«406272_j1443109012058_2_alg».proof.Pre_finite_inputs
import proofs.«406272_j1443109012058_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Pre_finite_inputs.Tok

open Cert.Pre_finite_inputs Idealize.ShloMosaic Idealize.ShloMosaic.ValueIdx

variable [Cert.Pre_finite_inputs.Facts]

/-- The rank-0 shape has exactly one index (there is no axis to give a coordinate on). -/
private instance subsingleton_scalar_idx : Subsingleton S_.Idx := ⟨fun a b => funext fun d => d.elim0⟩

/-- A 32-bit word that tests `0 ≤ w` and `w < 256` as a SIGNED word has unsigned value below 256: a nonnegative
    signed reading is the unsigned reading itself (the top bit is clear), so the signed bound is the unsigned one. -/
private theorem word_lt (w : BitVec 32) (h0 : IntOp.cmpi .sge w 0#32 = 1#1) (h1 : IntOp.cmpi .slt w 256#32 = 1#1) :
    w.toNat < 256 := by
  rw [IntOp.cmpi_sge] at h0
  rw [IntOp.cmpi_slt] at h1
  have e0 : (0#32 : BitVec 32).toInt = 0 := by decide
  have e1 : (256#32 : BitVec 32).toInt = 256 := by decide
  rw [e0] at h0
  rw [e1] at h1
  have hc := BitVec.toInt_eq_toNat_cond w
  have hw := w.isLt
  split at hc <;> omega

/-- Under the precondition every token word is a table row number: `0 ≤ token < 256` as a signed word, that is, its
    unsigned value is below 256. -/
theorem tok_lt {F : FTy → Type} [FloatOps F] (a0 : IVec S32768x2x32 32) (a1 : FVec F S256x16 .f32) (a2 a3 a4 a5 : FVec F S16x16 .f32) (a6 : FVec F S16 .f32)
    (a7 : FVec F S16x16 .f32) (a8 : FVec F S16 .f32)
    (h : Cert.Pre_finite_inputs.fn (F := F) a0 a1 a2 a3 a4 a5 a6 a7 a8 = fun _ => 1#1) (i : S32768x2x32.Idx) :
    (a0 i).toNat < 256 := by
  -- The predicate is a conjunction `X ∧ all(0 ≤ tokens ∧ tokens < 256)`; the finiteness conjuncts `X` of the float
  -- inputs play no part and are kept abstract.
  obtain ⟨X, hX⟩ : ∃ X : IVec S_ 1, Cert.Pre_finite_inputs.fn (F := F) a0 a1 a2 a3 a4 a5 a6 a7 a8 =
      andi X (Host.reduce IntOp.andi
        (andi (cmpi .sge a0 (broadcastInDim S32768x2x32 ![] Facts.bcast_S_S32768x2x32 (constantI S_ 32 0#32)))
              (cmpi .slt a0 (broadcastInDim S32768x2x32 ![] Facts.bcast_S_S32768x2x32 (constantI S_ 32 256#32))))
        (constantI S_ 1 1#1) Facts.reducesTo_S32768x2x32_S_d0_1_2 Facts.h_S_) := ⟨_, rfl⟩
  -- at the one index of the scalar result: a conjunction of two bits is 1 only if both are
  have e : IntOp.andi (X ix0) _ = 1#1 := congrFun (hX.symm.trans h) ix0
  have e2 := (IntOp.andi_eq_one.1 e).2
  -- a reduction by `and` over all three axes that is 1 met a 1 at every index of the token array
  have e3 : IntOp.andi (IntOp.cmpi .sge (a0 i) 0#32) (IntOp.cmpi .slt (a0 i) 256#32) = 1#1 :=
    Host.reduce_andi_all _ _ _ _ _ e2 i
  -- the two compares against the broadcast constants 0 and 256, at index i
  obtain ⟨h0, h1⟩ := IntOp.andi_eq_one.1 e3
  exact word_lt (a0 i) h0 h1

end Cert.Pre_finite_inputs.Tok

end
-- ==== Proof.Spec.lean ====
/-
  The mathematics both programs compute, stated once over plain finite index types and the extended reals.

  A SENTENCE is 32 token words. Its encoder looks each token up in a 256-row table of 16-vectors, projects the rows by
  three 16 × 16 matrices (x ↦ x · Wᵀ) into queries, keys and values, forms the 32 × 32 scores q · kᵀ / 4, shifts each row
  of scores by its maximum, takes the row-wise softmax of the shifted scores, mixes the values by it, applies a
  two-layer perceptron (affine, max with 0, affine) position by position and averages the 32 positions.
  A ROW of the batch holds two sentences, and the result for the row is the cosine similarity of the two encodings
  (with 1e-8 added to the product of the norms), mapped from [-1, 1] to [0, 1].

  Every float literal stays the word the programs print (`Ideal.ofBits .f32 0x…`): the same word on both sides is never
  evaluated. Only the last step differs between the two programs — one multiplies by the word of 0.5, the other divides
  by the word of 2 — and `half_mul_eq_div_two` joins them: dividing an extended real by 2 IS multiplying it by 1/2.
-/
import Idealize.ShloMosaic.PureOps.Ideal
import Idealize.ShloMosaic.PureOps.Ideal.Laws
import Idealize.ShloMosaic.Lib.ValueIdx

noncomputable section

namespace Cert.SentSim

open Idealize.ShloMosaic

/-- A rank-2 array as a function of its two coordinates. -/
def mat {a b : Nat} (x : (⟨2, ![a, b]⟩ : Shape).Idx → EReal) : Fin a → Fin b → EReal := fun i j => x (ValueIdx.ix2 i j)

/-- A rank-1 array as a function of its coordinate. -/
def vec {a : Nat} (x : (⟨1, ![a]⟩ : Shape).Idx → EReal) : Fin a → EReal := fun i => x (ValueIdx.ix1 i)

/-- Sentence `j` of row `b` of an array of token words laid out [rows, 2, 32]. -/
def sentOf {n : Nat} (x : (⟨3, ![n, 2, 32]⟩ : Shape).Idx → BitVec 32) (b : Fin n) (j : Fin 2) : Fin 32 → BitVec 32 :=
  fun s => x (ValueIdx.ix3 b j s)

/-- The number of sentence `j` of row `p` among the 256 sentences of a block of 128 rows: `2 p + j`. -/
def sn (p : Fin 128) (j : Fin 2) : Fin 256 := ⟨2 * p.val + j.val, by omega⟩

/-- The table row a token word names, for a word in range (`w.toNat < 256`: there `w.toNat % 256 = w.toNat`). -/
def row (w : BitVec 32) : Fin 256 := ⟨w.toNat % 256, Nat.mod_lt _ (by decide)⟩

theorem row_val {w : BitVec 32} (h : w.toNat < 256) : (row w).val = w.toNat := Nat.mod_eq_of_lt h

/-- The looked-up rows of a sentence: position `s`, feature `d`. -/
def look (emb : Fin 256 → Fin 16 → EReal) (tk : Fin 32 → BitVec 32) (s : Fin 32) (d : Fin 16) : EReal :=
  emb (row (tk s)) d

/-- A linear layer without bias, `x · Wᵀ`: output feature `e` of position `s` is `∑ d, x s d * w e d`. -/
def lin (w : Fin 16 → Fin 16 → EReal) (x : Fin 32 → Fin 16 → EReal) (s : Fin 32) (e : Fin 16) : EReal :=
  ∑ d : Fin 16, x s d * w e d

/-- The scaled scores: `(∑ e, q s e * k t e) * 0.25`. -/
def score (q k : Fin 32 → Fin 16 → EReal) (s t : Fin 32) : EReal :=
  (∑ e : Fin 16, q s e * k t e) * Ideal.ofBits .f32 0x3E800000#32

/-- A row's maximum as both programs take it: the fold of `max` from `-∞` over the row, and once more `max` with `-∞`. -/
def rowMax (sc : Fin 32 → Fin 32 → EReal) (s : Fin 32) : EReal :=
  max (Ideal.ofBits .f32 0xFF800000#32)
    ((Finset.univ : Finset (Fin 32)).fold max (Ideal.ofBits .f32 0xFF800000#32) (sc s))

/-- The scores shifted by their row maximum. -/
def shifted (sc : Fin 32 → Fin 32 → EReal) (s t : Fin 32) : EReal := sc s t - rowMax sc s

/-- The softmax of already shifted scores: `exp (d s t) / ∑ u, exp (d s u)`. -/
def softm (dd : Fin 32 → Fin 32 → EReal) (s t : Fin 32) : EReal :=
  Ideal.div (Ideal.exp (dd s t)) (∑ u : Fin 32, Ideal.exp (dd s u))

/-- The values mixed by the attention weights: `∑ t, p s t * v t e`. -/
def mix (p : Fin 32 → Fin 32 → EReal) (v : Fin 32 → Fin 16 → EReal) (s : Fin 32) (e : Fin 16) : EReal :=
  ∑ t : Fin 32, p s t * v t e

/-- The hidden layer: `max (y · W₁ᵀ + b₁) 0`. -/
def hidden (w1 : Fin 16 → Fin 16 → EReal) (b1 : Fin 16 → EReal) (y : Fin 32 → Fin 16 → EReal) (s : Fin 32) (e : Fin 16) : EReal :=
  max (lin w1 y s e + b1 e) (Ideal.ofBits .f32 0x00000000#32)

/-- The output layer: `h · W₂ᵀ + b₂`. -/
def outp (w2 : Fin 16 → Fin 16 → EReal) (b2 : Fin 16 → EReal) (h : Fin 32 → Fin 16 → EReal) (s : Fin 32) (e : Fin 16) : EReal :=
  lin w2 h s e + b2 e

/-- The mean over the 32 positions: `(∑ s, o s e) / 32`. -/
def meanv (o : Fin 32 → Fin 16 → EReal) (e : Fin 16) : EReal :=
  Ideal.div (∑ s : Fin 32, o s e) (Ideal.ofBits .f32 0x42000000#32)

/-- Everything after the shifted scores and the values: softmax, mixing, the perceptron, the mean. -/
def tail (w1 : Fin 16 → Fin 16 → EReal) (b1 : Fin 16 → EReal) (w2 : Fin 16 → Fin 16 → EReal) (b2 : Fin 16 → EReal)
    (dd : Fin 32 → Fin 32 → EReal) (vv : Fin 32 → Fin 16 → EReal) : Fin 16 → EReal :=
  meanv (outp w2 b2 (hidden w1 b1 (mix (softm dd) vv)))

/-- The shifted scores of a sentence. -/
def sentShift (emb : Fin 256 → Fin 16 → EReal) (wq wk : Fin 16 → Fin 16 → EReal) (tk : Fin 32 → BitVec 32) :
    Fin 32 → Fin 32 → EReal :=
  shifted (score (lin wq (look emb tk)) (lin wk (look emb tk)))

/-- The values of a sentence. -/
def sentVal (emb : Fin 256 → Fin 16 → EReal) (wv : Fin 16 → Fin 16 → EReal) (tk : Fin 32 → BitVec 32) :
    Fin 32 → Fin 16 → EReal :=
  lin wv (look emb tk)

/-- The encoder of one sentence. -/
def enc (emb : Fin 256 → Fin 16 → EReal) (wq wk wv w1 : Fin 16 → Fin 16 → EReal) (b1 : Fin 16 → EReal)
    (w2 : Fin 16 → Fin 16 → EReal) (b2 : Fin 16 → EReal) (tk : Fin 32 → BitVec 32) : Fin 16 → EReal :=
  tail w1 b1 w2 b2 (sentShift emb wq wk tk) (sentVal emb wv tk)

/-- The similarity before its last step: `(u · v) / (‖u‖ ‖v‖ + 1e-8) + 1`. -/
def simPlusOne (u v : Fin 16 → EReal) : EReal :=
  Ideal.div (∑ e : Fin 16, u e * v e)
      (Ideal.sqrt (∑ e : Fin 16, u e * u e) * Ideal.sqrt (∑ e : Fin 16, v e * v e) + Ideal.ofBits .f32 0x322BCC77#32)
    + Ideal.ofBits .f32 0x3F800000#32

/-- The result with the last step a product with the word of 0.5. -/
def simMul (u v : Fin 16 → EReal) : EReal := simPlusOne u v * Ideal.ofBits .f32 0x3F000000#32

/-- The result with the last step a quotient by the word of 2. -/
def simDiv (u v : Fin 16 → EReal) : EReal := Ideal.div (simPlusOne u v) (Ideal.ofBits .f32 0x40000000#32)

theorem ofBits_two : Ideal.ofBits .f32 0x40000000#32 = ((2 : ℝ) : EReal) := by
  simp [Ideal.ofBits, Ideal.ieee]
  rw [← EReal.coe_mul]; norm_num

theorem ofBits_half : Ideal.ofBits .f32 0x3F000000#32 = ((1 / 2 : ℝ) : EReal) := by
  simp [Ideal.ofBits, Ideal.ieee]
  rw [← EReal.coe_mul]; norm_num

/-- Dividing an extended real by 2 is multiplying it by 1/2. -/
theorem half_mul_eq_div_two (x : EReal) :
    x * Ideal.ofBits .f32 0x3F000000#32 = Ideal.div x (Ideal.ofBits .f32 0x40000000#32) := by
  rw [ofBits_two, ofBits_half, Ideal.div_coe (by norm_num : (2 : ℝ) ≠ 0)]

theorem simMul_eq_simDiv (u v : Fin 16 → EReal) : simMul u v = simDiv u v := half_mul_eq_div_two _

end Cert.SentSim

end
-- ==== Proof.KerFront.lean ====
import proofs.«406272_j1443109012058_2_alg».proof.Proof.Spec
import proofs.«406272_j1443109012058_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Front

open Cert.KernelIdeal Cert.KernelIdeal.Gen Idealize.ShloMosaic Idealize.ShloMosaic.TcCoe Idealize.ShloMosaic.ValueIdx Cert.SentSim

/-! ## The three contractions read at an index

Each matrix product into the zero splat is, at an output index, the sum over its one contracted axis of the products of
the operands' entries; the operand indices are named coordinate by coordinate. -/

/-! ### The lookup contraction [8192, 256] · [256, 16] -/

private theorem lhsA_0 (i : S8192x16.Idx) (q : dot_S8192x256_S256x16_S8192x16_1_0_0_1_n_n.contr.Idx) :
    (dot_S8192x256_S256x16_S8192x16_1_0_0_1_n_n.lhsIdx i q 0).val = (i 0).val := by
  unfold DotDims.lhsIdx
  rw [dif_neg (show ¬(0 : Fin S8192x256.rank) ∈ dot_S8192x256_S256x16_S8192x16_1_0_0_1_n_n.lhsBatch by decide), dif_pos (show (0 : Fin S8192x256.rank) ∈ dot_S8192x256_S256x16_S8192x16_1_0_0_1_n_n.lhsNonContracting by decide)]
  rfl
private theorem lhsA_1 (i : S8192x16.Idx) (q : dot_S8192x256_S256x16_S8192x16_1_0_0_1_n_n.contr.Idx) :
    (dot_S8192x256_S256x16_S8192x16_1_0_0_1_n_n.lhsIdx i q 1).val = (q ⟨0, by decide⟩).val :=
  dot_S8192x256_S256x16_S8192x16_1_0_0_1_n_n.lhsIdx_val_of_single rfl i q
private theorem rhsA_0 (i : S8192x16.Idx) (q : dot_S8192x256_S256x16_S8192x16_1_0_0_1_n_n.contr.Idx) :
    (dot_S8192x256_S256x16_S8192x16_1_0_0_1_n_n.rhsIdx i q 0).val = (q ⟨0, by decide⟩).val :=
  dot_S8192x256_S256x16_S8192x16_1_0_0_1_n_n.rhsIdx_val_of_single rfl i q
private theorem rhsA_1 (i : S8192x16.Idx) (q : dot_S8192x256_S256x16_S8192x16_1_0_0_1_n_n.contr.Idx) :
    (dot_S8192x256_S256x16_S8192x16_1_0_0_1_n_n.rhsIdx i q 1).val = (i 1).val := by
  unfold DotDims.rhsIdx
  rw [dif_neg (show ¬(1 : Fin S256x16.rank) ∈ dot_S8192x256_S256x16_S8192x16_1_0_0_1_n_n.rhsBatch by decide), dif_pos (show (1 : Fin S256x16.rank) ∈ dot_S8192x256_S256x16_S8192x16_1_0_0_1_n_n.rhsNonContracting by decide)]
  rfl

/-- Entry (r, d) of the lookup product is the sum over e of x r e * y e d. -/
private theorem matmulA_apply (x : FVec Ideal S8192x256 .bf16) (y : FVec Ideal S256x16 .bf16) (r : Fin 8192) (d : Fin 16) :
    matmul (F := Ideal) dot_S8192x256_S256x16_S8192x16_1_0_0_1_n_n none x y (constant (F := Ideal) S8192x16 .f32 0x00000000#32) (ix2 r d)
      = ∑ e : Fin 256, x (ix2 r e) * y (ix2 e d) := by
  simp only [matmul]
  rw [Ideal.matmul_constant_zero_apply, ← Equiv.sum_comp (contrEquiv1 dot_S8192x256_S256x16_S8192x16_1_0_0_1_n_n 256 rfl rfl).symm]
  refine Finset.sum_congr rfl fun k _ => ?_
  have hk := contrEquiv1_symm_val dot_S8192x256_S256x16_S8192x16_1_0_0_1_n_n 256 rfl rfl k
  have el : dot_S8192x256_S256x16_S8192x16_1_0_0_1_n_n.lhsIdx (ix2 r d) ((contrEquiv1 dot_S8192x256_S256x16_S8192x16_1_0_0_1_n_n 256 rfl rfl).symm k) = ix2 r k := funext fun a => Fin.ext (by
    match a with
    | ⟨0, _⟩ => exact lhsA_0 _ _
    | ⟨1, _⟩ => exact (lhsA_1 _ _).trans hk)
  have er : dot_S8192x256_S256x16_S8192x16_1_0_0_1_n_n.rhsIdx (ix2 r d) ((contrEquiv1 dot_S8192x256_S256x16_S8192x16_1_0_0_1_n_n 256 rfl rfl).symm k) = ix2 k d := funext fun a => Fin.ext (by
    match a with
    | ⟨0, _⟩ => exact (rhsA_0 _ _).trans hk
    | ⟨1, _⟩ => exact rhsA_1 _ _)
  rw [el, er]

/-! ### The projection contraction [8192, 16] · [16, 16] -/

private theorem lhsB_0 (i : S8192x16.Idx) (q : dot_S8192x16_S16x16_S8192x16_1_0_0_1_n_n.contr.Idx) :
    (dot_S8192x16_S16x16_S8192x16_1_0_0_1_n_n.lhsIdx i q 0).val = (i 0).val := by
  unfold DotDims.lhsIdx
  rw [dif_neg (show ¬(0 : Fin S8192x16.rank) ∈ dot_S8192x16_S16x16_S8192x16_1_0_0_1_n_n.lhsBatch by decide), dif_pos (show (0 : Fin S8192x16.rank) ∈ dot_S8192x16_S16x16_S8192x16_1_0_0_1_n_n.lhsNonContracting by decide)]
  rfl
private theorem lhsB_1 (i : S8192x16.Idx) (q : dot_S8192x16_S16x16_S8192x16_1_0_0_1_n_n.contr.Idx) :
    (dot_S8192x16_S16x16_S8192x16_1_0_0_1_n_n.lhsIdx i q 1).val = (q ⟨0, by decide⟩).val :=
  dot_S8192x16_S16x16_S8192x16_1_0_0_1_n_n.lhsIdx_val_of_single rfl i q
private theorem rhsB_0 (i : S8192x16.Idx) (q : dot_S8192x16_S16x16_S8192x16_1_0_0_1_n_n.contr.Idx) :
    (dot_S8192x16_S16x16_S8192x16_1_0_0_1_n_n.rhsIdx i q 0).val = (q ⟨0, by decide⟩).val :=
  dot_S8192x16_S16x16_S8192x16_1_0_0_1_n_n.rhsIdx_val_of_single rfl i q
private theorem rhsB_1 (i : S8192x16.Idx) (q : dot_S8192x16_S16x16_S8192x16_1_0_0_1_n_n.contr.Idx) :
    (dot_S8192x16_S16x16_S8192x16_1_0_0_1_n_n.rhsIdx i q 1).val = (i 1).val := by
  unfold DotDims.rhsIdx
  rw [dif_neg (show ¬(1 : Fin S16x16.rank) ∈ dot_S8192x16_S16x16_S8192x16_1_0_0_1_n_n.rhsBatch by decide), dif_pos (show (1 : Fin S16x16.rank) ∈ dot_S8192x16_S16x16_S8192x16_1_0_0_1_n_n.rhsNonContracting by decide)]
  rfl

/-- Entry (r, e) of a projection product is the sum over d of x r d * y d e. -/
private theorem matmulB_apply (x : FVec Ideal S8192x16 .bf16) (y : FVec Ideal S16x16 .bf16) (r : Fin 8192) (e : Fin 16) :
    matmul (F := Ideal) dot_S8192x16_S16x16_S8192x16_1_0_0_1_n_n none x y (constant (F := Ideal) S8192x16 .f32 0x00000000#32) (ix2 r e)
      = ∑ d : Fin 16, x (ix2 r d) * y (ix2 d e) := by
  simp only [matmul]
  rw [Ideal.matmul_constant_zero_apply, ← Equiv.sum_comp (contrEquiv1 dot_S8192x16_S16x16_S8192x16_1_0_0_1_n_n 16 rfl rfl).symm]
  refine Finset.sum_congr rfl fun k _ => ?_
  have hk := contrEquiv1_symm_val dot_S8192x16_S16x16_S8192x16_1_0_0_1_n_n 16 rfl rfl k
  have el : dot_S8192x16_S16x16_S8192x16_1_0_0_1_n_n.lhsIdx (ix2 r e) ((contrEquiv1 dot_S8192x16_S16x16_S8192x16_1_0_0_1_n_n 16 rfl rfl).symm k) = ix2 r k := funext fun a => Fin.ext (by
    match a with
    | ⟨0, _⟩ => exact lhsB_0 _ _
    | ⟨1, _⟩ => exact (lhsB_1 _ _).trans hk)
  have er : dot_S8192x16_S16x16_S8192x16_1_0_0_1_n_n.rhsIdx (ix2 r e) ((contrEquiv1 dot_S8192x16_S16x16_S8192x16_1_0_0_1_n_n 16 rfl rfl).symm k) = ix2 k e := funext fun a => Fin.ext (by
    match a with
    | ⟨0, _⟩ => exact (rhsB_0 _ _).trans hk
    | ⟨1, _⟩ => exact rhsB_1 _ _)
  rw [el, er]

/-! ### The score contraction [256, 32, 16] · [256, 32, 16], batched over the sentence -/

private theorem lhsC_0 (i : S256x32x32.Idx) (q : dot_S256x32x16_S256x32x16_S256x32x32_2_2_1_1_0_0.contr.Idx) :
    (dot_S256x32x16_S256x32x16_S256x32x32_2_2_1_1_0_0.lhsIdx i q 0).val = (i 0).val := by
  unfold DotDims.lhsIdx
  rw [dif_pos (show (0 : Fin S256x32x16.rank) ∈ dot_S256x32x16_S256x32x16_S256x32x32_2_2_1_1_0_0.lhsBatch by decide)]
  rfl
private theorem lhsC_1 (i : S256x32x32.Idx) (q : dot_S256x32x16_S256x32x16_S256x32x32_2_2_1_1_0_0.contr.Idx) :
    (dot_S256x32x16_S256x32x16_S256x32x32_2_2_1_1_0_0.lhsIdx i q 1).val = (i 1).val := by
  unfold DotDims.lhsIdx
  rw [dif_neg (show ¬(1 : Fin S256x32x16.rank) ∈ dot_S256x32x16_S256x32x16_S256x32x32_2_2_1_1_0_0.lhsBatch by decide), dif_pos (show (1 : Fin S256x32x16.rank) ∈ dot_S256x32x16_S256x32x16_S256x32x32_2_2_1_1_0_0.lhsNonContracting by decide)]
  rfl
private theorem lhsC_2 (i : S256x32x32.Idx) (q : dot_S256x32x16_S256x32x16_S256x32x32_2_2_1_1_0_0.contr.Idx) :
    (dot_S256x32x16_S256x32x16_S256x32x32_2_2_1_1_0_0.lhsIdx i q 2).val = (q ⟨0, by decide⟩).val :=
  dot_S256x32x16_S256x32x16_S256x32x32_2_2_1_1_0_0.lhsIdx_val_of_single rfl i q
private theorem rhsC_0 (i : S256x32x32.Idx) (q : dot_S256x32x16_S256x32x16_S256x32x32_2_2_1_1_0_0.contr.Idx) :
    (dot_S256x32x16_S256x32x16_S256x32x32_2_2_1_1_0_0.rhsIdx i q 0).val = (i 0).val := by
  unfold DotDims.rhsIdx
  rw [dif_pos (show (0 : Fin S256x32x16.rank) ∈ dot_S256x32x16_S256x32x16_S256x32x32_2_2_1_1_0_0.rhsBatch by decide)]
  rfl
private theorem rhsC_1 (i : S256x32x32.Idx) (q : dot_S256x32x16_S256x32x16_S256x32x32_2_2_1_1_0_0.contr.Idx) :
    (dot_S256x32x16_S256x32x16_S256x32x32_2_2_1_1_0_0.rhsIdx i q 1).val = (i 2).val := by
  unfold DotDims.rhsIdx
  rw [dif_neg (show ¬(1 : Fin S256x32x16.rank) ∈ dot_S256x32x16_S256x32x16_S256x32x32_2_2_1_1_0_0.rhsBatch by decide), dif_pos (show (1 : Fin S256x32x16.rank) ∈ dot_S256x32x16_S256x32x16_S256x32x32_2_2_1_1_0_0.rhsNonContracting by decide)]
  rfl
private theorem rhsC_2 (i : S256x32x32.Idx) (q : dot_S256x32x16_S256x32x16_S256x32x32_2_2_1_1_0_0.contr.Idx) :
    (dot_S256x32x16_S256x32x16_S256x32x32_2_2_1_1_0_0.rhsIdx i q 2).val = (q ⟨0, by decide⟩).val :=
  dot_S256x32x16_S256x32x16_S256x32x32_2_2_1_1_0_0.rhsIdx_val_of_single rfl i q

/-- Entry (b, s, t) of the score product is the sum over e of x b s e * y b t e. -/
private theorem matmulC_apply (x y : FVec Ideal S256x32x16 .bf16) (b : Fin 256) (s t : Fin 32) :
    matmul (F := Ideal) dot_S256x32x16_S256x32x16_S256x32x32_2_2_1_1_0_0 none x y (constant (F := Ideal) S256x32x32 .f32 0x00000000#32) (ix3 b s t)
      = ∑ e : Fin 16, x (ix3 b s e) * y (ix3 b t e) := by
  simp only [matmul]
  rw [Ideal.matmul_constant_zero_apply, ← Equiv.sum_comp (contrEquiv1 dot_S256x32x16_S256x32x16_S256x32x32_2_2_1_1_0_0 16 rfl rfl).symm]
  refine Finset.sum_congr rfl fun k _ => ?_
  have hk := contrEquiv1_symm_val dot_S256x32x16_S256x32x16_S256x32x32_2_2_1_1_0_0 16 rfl rfl k
  have el : dot_S256x32x16_S256x32x16_S256x32x32_2_2_1_1_0_0.lhsIdx (ix3 b s t) ((contrEquiv1 dot_S256x32x16_S256x32x16_S256x32x32_2_2_1_1_0_0 16 rfl rfl).symm k) = ix3 b s k := funext fun a => Fin.ext (by
    match a with
    | ⟨0, _⟩ => exact lhsC_0 _ _
    | ⟨1, _⟩ => exact lhsC_1 _ _
    | ⟨2, _⟩ => exact (lhsC_2 _ _).trans hk)
  have er : dot_S256x32x16_S256x32x16_S256x32x32_2_2_1_1_0_0.rhsIdx (ix3 b s t) ((contrEquiv1 dot_S256x32x16_S256x32x16_S256x32x32_2_2_1_1_0_0 16 rfl rfl).symm k) = ix3 b t k := funext fun a => Fin.ext (by
    match a with
    | ⟨0, _⟩ => exact rhsC_0 _ _
    | ⟨1, _⟩ => exact rhsC_1 _ _
    | ⟨2, _⟩ => exact (rhsC_2 _ _).trans hk)
  rw [el, er]

/-! ## Rows, words and the one-hot factor -/

/-- The flat row of position s of sentence j of row p among the 8192 rows: 64 p + 32 j + s. -/
private abbrev flat (p : Fin 128) (j : Fin 2) (s : Fin 32) : Fin 8192 := ⟨64 * p.val + 32 * j.val + s.val, by omega⟩

/-- A token word in range is the word of table row e exactly when e is its row. -/
private theorem word_eq_iff (w : BitVec 32) (hw : w.toNat < 256) (e : Fin 256) :
    w = BitVec.ofNat 32 e.val ↔ e = row w := by
  constructor
  · intro h
    apply Fin.ext
    rw [row_val hw, h, BitVec.toNat_ofNat]
    have := e.isLt
    omega
  · intro h
    subst h
    rw [row_val hw]
    simp

/-- The one-hot factor of a word against table row e: the conversion of the widened comparison bit is 1 where they
    agree and 0 where they differ. -/
private theorem hot_val (w x : BitVec 32) :
    (FloatOps.sitofp (F := Ideal) .f32 ((IntOp.cmpi .eq w x).setWidth 32) : EReal) = if w = x then 1 else 0 := by
  by_cases h : w = x
  · rw [if_pos h]
    have hc : IntOp.cmpi .eq w x = 1#1 := by simp [IntOp.cmpi, h]
    rw [hc]
    have e1 : ((1#1 : BitVec 1).setWidth 32).toInt = 1 := by decide
    show ((((1#1 : BitVec 1).setWidth 32).toInt : ℝ) : EReal) = 1
    rw [e1]; simp
  · rw [if_neg h]
    have hb : (w == x) = false := beq_eq_false_iff_ne.mpr h
    have hc : IntOp.cmpi .eq w x = 0#1 := by simp [IntOp.cmpi, hb]
    rw [hc]
    have e0 : ((0#1 : BitVec 1).setWidth 32).toInt = 0 := by decide
    show ((((0#1 : BitVec 1).setWidth 32).toInt : ℝ) : EReal) = 0
    rw [e0]; simp

/-- The token block given a unit axis and broadcast along the table rows reads, at (p, j, s, e), the token word of
    position s of sentence j of row p. -/
private theorem tokB_apply (P0 : Vec Ideal S128x2x32 .i32) (h1 : S128x2x32.ShapeCasts S128x2x32x1)
    (h2 : S128x2x32x1.Broadcasts S128x2x32x256) (p : Fin 128) (j : Fin 2) (s : Fin 32) (e : Fin 256) :
    broadcastTo S128x2x32x256 (shapeCast S128x2x32x1 P0 h1) h2 (ix4 p j s e) = P0 (ix3 p j s) := by
  refine (broadcastTo_apply _ h2 (ix4 p j s e) (ix4 p j s (0 : Fin 1)) (fun a => ?_)).trans ?_
  · match a with
    | ⟨0, _⟩ => rfl
    | ⟨1, _⟩ => rfl
    | ⟨2, _⟩ => rfl
    | ⟨3, _⟩ => rfl
  · exact shapeCast_apply _ h1 (ix4 p j s (0 : Fin 1)) (ix3 p j s) (by
      rw [Shape.rowMajor_val_three, Shape.rowMajor_val_four]
      show (p.val * 2 + j.val) * 32 + s.val = ((p.val * 2 + j.val) * 32 + s.val) * 1 + 0
      omega)

/-- The one-hot operand of the lookup, flattened to [8192, 256]: at flat row 64 p + 32 j + s and table row e it is 1
    where the token word is the word of e, and 0 elsewhere. -/
private theorem hot_apply (P0 : Vec Ideal S128x2x32 .i32) (hi : S128x2x32x256.Iotas .tc 32 [3])
    (h1 : S128x2x32.ShapeCasts S128x2x32x1) (h2 : S128x2x32x1.Broadcasts S128x2x32x256) (h3 : 1 < 32)
    (h4 : FTy.bits .bf16 < FTy.bits .f32) (h5 : S128x2x32x256.ShapeCasts S8192x256)
    (p : Fin 128) (j : Fin 2) (s : Fin 32) (e : Fin 256) :
    (shapeCast S8192x256 (truncf (F := Ideal) .bf16 (sitofp (F := Ideal) .f32 (extui 32 (cmpi .eq
        (broadcastTo S128x2x32x256 (shapeCast S128x2x32x1 P0 h1) h2) (iota .tc S128x2x32x256 32 [3] hi)) h3)) h4) h5
        : FVec Ideal S8192x256 .bf16) (ix2 (flat p j s) e)
      = if P0 (ix3 p j s) = BitVec.ofNat 32 e.val then 1 else 0 := by
  refine (shapeCast_apply _ h5 (ix2 (flat p j s) e) (ix4 p j s e) (by
      rw [Shape.rowMajor_val_four, Shape.rowMajor_val_two]
      show ((p.val * 2 + j.val) * 32 + s.val) * 256 + e.val = (64 * p.val + 32 * j.val + s.val) * 256 + e.val
      omega)).trans ?_
  show FloatOps.sitofp (F := Ideal) .f32 ((IntOp.cmpi .eq
      (broadcastTo S128x2x32x256 (shapeCast S128x2x32x1 P0 h1) h2 (ix4 p j s e))
      (iota .tc S128x2x32x256 32 [3] hi (ix4 p j s e))).setWidth 32) = _
  rw [tokB_apply, iota_single_apply]
  exact hot_val _ _

/-! ## The layout operations of the projections -/

/-- The flat rows regrouped by sentence: entry (2 p + j, t, e) of the [256, 32, 16] view is entry (64 p + 32 j + t, e). -/
private theorem regroup_apply {α : Type} (x : S8192x16.Idx → α) (h : S8192x16.ShapeCasts S256x32x16)
    (p : Fin 128) (j : Fin 2) (t : Fin 32) (e : Fin 16) :
    shapeCast S256x32x16 x h (ix3 (sn p j) t e) = x (ix2 (flat p j t) e) :=
  shapeCast_apply x h (ix3 (sn p j) t e) (ix2 (flat p j t) e) (by
    rw [Shape.rowMajor_val_two, Shape.rowMajor_val_three]
    show (64 * p.val + 32 * j.val + t.val) * 16 + e.val = ((2 * p.val + j.val) * 32 + t.val) * 16 + e.val
    omega)

/-- A transposed 16 × 16 matrix at (d, e) is the matrix at (e, d). -/
private theorem transp_apply {α : Type} (w : S16x16.Idx → α) (h : S16x16.Transposes [1, 0] S16x16) (d e : Fin 16) :
    transpose S16x16 [1, 0] w h (ix2 d e) = w (ix2 e d) :=
  transpose_apply [1, 0] w h (ix2 d e) (ix2 e d) (fun b => match b with | ⟨0, _⟩ => rfl | ⟨1, _⟩ => rfl)

/-! ## The looked-up rows -/

/-- The lookup done as a product with the one-hot operand: at flat row 64 p + 32 j + s and feature d the sum over the
    256 table rows has one term that is not 0 times an entry, the row of the token word, and that term is 1 times the
    table's entry. -/
private theorem pay2_apply (P0 : Vec Ideal S128x2x32 .i32) (P1 : Vec Ideal S256x16 .f32)
    (h0 : ∀ i, (P0 i : BitVec 32).toNat < 256) (p : Fin 128) (j : Fin 2) (s : Fin 32) (d : Fin 16) :
    k0_pay2 (F := Ideal) P0 P1 (ix2 (flat p j s) d) = look (mat P1) (sentOf P0 p j) s d := by
  unfold k0_pay2
  dsimp only
  rw [truncf_apply]
  refine (matmulA_apply _ _ (flat p j s) d).trans ?_
  rw [Finset.sum_eq_single (row (P0 (ix3 p j s)))]
  · rw [hot_apply, if_pos ((word_eq_iff _ (h0 _) _).mpr rfl), one_mul]
    rfl
  · intro e _ hne
    rw [hot_apply, if_neg (fun h => hne ((word_eq_iff _ (h0 _) _).mp h)), zero_mul]
  · intro h
    exact absurd (Finset.mem_univ _) h

/-! ## A projection of the looked-up rows, regrouped by sentence -/

/-- The product of the rows X with a transposed 16 × 16 matrix W, regrouped by sentence: entry (2 p + j, t, e) is
    the sum over d of X (64 p + 32 j + t) d * W e d. -/
private theorem proj_apply (X : FVec Ideal S8192x16 .bf16) (W : Vec Ideal S16x16 .f32)
    (h4 : FTy.bits .bf16 < FTy.bits .f32) (ht : S16x16.Transposes [1, 0] S16x16) (hs : S8192x16.ShapeCasts S256x32x16)
    (p : Fin 128) (j : Fin 2) (t : Fin 32) (e : Fin 16) :
    (truncf (F := Ideal) .bf16 (shapeCast S256x32x16 (matmul (F := Ideal) dot_S8192x16_S16x16_S8192x16_1_0_0_1_n_n none X
        (transpose S16x16 [1, 0] (truncf (F := Ideal) .bf16 W h4) ht) (constant (F := Ideal) S8192x16 .f32 0x00000000#32)) hs) h4
        : FVec Ideal S256x32x16 .bf16) (ix3 (sn p j) t e)
      = ∑ d : Fin 16, X (ix2 (flat p j t) d) * mat W e d := by
  rw [truncf_apply]
  refine (regroup_apply _ hs p j t e).trans ?_
  refine (matmulB_apply _ _ _ _).trans ?_
  refine Finset.sum_congr rfl fun d _ => ?_
  rw [transp_apply]
  rfl

/-- The values of sentence `j` of row `p`, as the body leaves them (position `t`, feature `e`). -/
theorem pay3_apply (P0 : Vec Ideal S128x2x32 .i32) (P1 : Vec Ideal S256x16 .f32) (P4 : Vec Ideal S16x16 .f32)
    (h0 : ∀ i, (P0 i : BitVec 32).toNat < 256) (p : Fin 128) (j : Fin 2) (t : Fin 32) (e : Fin 16) :
    k0_pay3 (F := Ideal) P0 P1 P4 (ix3 (sn p j) t e) = sentVal (mat P1) (mat P4) (sentOf P0 p j) t e := by
  unfold k0_pay3
  dsimp only
  refine (proj_apply _ P4 _ _ _ p j t e).trans ?_
  show _ = ∑ d : Fin 16, look (mat P1) (sentOf P0 p j) t d * mat P4 e d
  refine Finset.sum_congr rfl fun d _ => ?_
  rw [pay2_apply P0 P1 h0]

/-! ## The scores and their row maximum -/

/-- The scaled scores over projected rows X: at (2 p + j, s, t) the contraction over the 16 features of the query row
    of position s with the key row of position t, times the word of 0.25. -/
private theorem kscore_apply (X : FVec Ideal S8192x16 .bf16) (Wq Wk : Vec Ideal S16x16 .f32)
    (h4 : FTy.bits .bf16 < FTy.bits .f32) (ht : S16x16.Transposes [1, 0] S16x16) (hs : S8192x16.ShapeCasts S256x32x16)
    (p : Fin 128) (j : Fin 2) (s t : Fin 32) :
    (mulf (matmul (F := Ideal) dot_S256x32x16_S256x32x16_S256x32x32_2_2_1_1_0_0 none
        (truncf (F := Ideal) .bf16 (shapeCast S256x32x16 (matmul (F := Ideal) dot_S8192x16_S16x16_S8192x16_1_0_0_1_n_n none X
          (transpose S16x16 [1, 0] (truncf (F := Ideal) .bf16 Wq h4) ht) (constant (F := Ideal) S8192x16 .f32 0x00000000#32)) hs) h4)
        (truncf (F := Ideal) .bf16 (shapeCast S256x32x16 (matmul (F := Ideal) dot_S8192x16_S16x16_S8192x16_1_0_0_1_n_n none X
          (transpose S16x16 [1, 0] (truncf (F := Ideal) .bf16 Wk h4) ht) (constant (F := Ideal) S8192x16 .f32 0x00000000#32)) hs) h4)
        (constant (F := Ideal) S256x32x32 .f32 0x00000000#32))
      (broadcast S256x32x32 (Scalar.ofBits (F := Ideal) .f32 0x3E800000#32)) : FVec Ideal S256x32x32 .f32) (ix3 (sn p j) s t)
      = (∑ e : Fin 16, (∑ d : Fin 16, X (ix2 (flat p j s) d) * mat Wq e d) * (∑ d : Fin 16, X (ix2 (flat p j t) d) * mat Wk e d))
          * Ideal.ofBits .f32 0x3E800000#32 := by
  rw [mulf_apply, broadcast_apply]
  refine congrArg (fun z : EReal => z * Ideal.ofBits .f32 0x3E800000#32) ?_
  refine (matmulC_apply _ _ (sn p j) s t).trans ?_
  refine Finset.sum_congr rfl fun e _ => ?_
  rw [proj_apply, proj_apply]

/-- The same over the looked-up rows: the specification's scaled scores of sentence j of row p. -/
private theorem score_apply (P0 : Vec Ideal S128x2x32 .i32) (P1 : Vec Ideal S256x16 .f32) (P2 P3 : Vec Ideal S16x16 .f32)
    (h0 : ∀ i, (P0 i : BitVec 32).toNat < 256)
    (h4 : FTy.bits .bf16 < FTy.bits .f32) (ht : S16x16.Transposes [1, 0] S16x16) (hs : S8192x16.ShapeCasts S256x32x16)
    (p : Fin 128) (j : Fin 2) (s t : Fin 32) :
    (mulf (matmul (F := Ideal) dot_S256x32x16_S256x32x16_S256x32x32_2_2_1_1_0_0 none
        (truncf (F := Ideal) .bf16 (shapeCast S256x32x16 (matmul (F := Ideal) dot_S8192x16_S16x16_S8192x16_1_0_0_1_n_n none (k0_pay2 (F := Ideal) P0 P1)
          (transpose S16x16 [1, 0] (truncf (F := Ideal) .bf16 P2 h4) ht) (constant (F := Ideal) S8192x16 .f32 0x00000000#32)) hs) h4)
        (truncf (F := Ideal) .bf16 (shapeCast S256x32x16 (matmul (F := Ideal) dot_S8192x16_S16x16_S8192x16_1_0_0_1_n_n none (k0_pay2 (F := Ideal) P0 P1)
          (transpose S16x16 [1, 0] (truncf (F := Ideal) .bf16 P3 h4) ht) (constant (F := Ideal) S8192x16 .f32 0x00000000#32)) hs) h4)
        (constant (F := Ideal) S256x32x32 .f32 0x00000000#32))
      (broadcast S256x32x32 (Scalar.ofBits (F := Ideal) .f32 0x3E800000#32)) : FVec Ideal S256x32x32 .f32) (ix3 (sn p j) s t)
      = score (lin (mat P2) (look (mat P1) (sentOf P0 p j))) (lin (mat P3) (look (mat P1) (sentOf P0 p j))) s t := by
  refine (kscore_apply _ P2 P3 h4 ht hs p j s t).trans ?_
  show _ = (∑ e : Fin 16, (∑ d : Fin 16, look (mat P1) (sentOf P0 p j) s d * mat P2 e d)
      * (∑ d : Fin 16, look (mat P1) (sentOf P0 p j) t d * mat P3 e d)) * Ideal.ofBits .f32 0x3E800000#32
  simp only [pay2_apply P0 P1 h0]

/-- Scores V minus their row maximum — the fold of max from the word of -∞ over the row, and once more max with that
    word —, the maximum given a unit axis and broadcast back along the row: where row s of sentence b of V is row s of
    sc, the result at (b, s, t) is the shifted score. -/
private theorem shift_apply (V : FVec Ideal S256x32x32 .f32) (sc : Fin 32 → Fin 32 → EReal)
    (hr : S256x32x32.Reduces [2] S256x32) (hφ : FKind.Formats .f32)
    (hacc : (0xFF800000#32 : BitVec 32) = FKind.maximumf.neutral .f32 hφ) (hc : S256x32.ShapeCasts S256x32x1)
    (hb : S256x32x1.Broadcasts S256x32x32) (b : Fin 256) (s t : Fin 32) (hV : ∀ u : Fin 32, V (ix3 b s u) = sc s u) :
    subf V (broadcastTo S256x32x32 (shapeCast S256x32x1 (maximumf (broadcast S256x32 (Scalar.ofBits (F := Ideal) .f32 0xFF800000#32))
        (multiReduction .maximumf [2] S256x32 V 0xFF800000#32 hr hφ hacc)) hc) hb) (ix3 b s t)
      = shifted sc s t := by
  rw [subf_apply]
  show _ = sc s t - rowMax sc s
  refine congrArg₂ (fun x y : EReal => x - y) (hV t) ?_
  refine (broadcastTo_apply _ hb (ix3 b s t) (ix3 b s (0 : Fin 1)) (fun a => match a with
    | ⟨0, _⟩ => rfl
    | ⟨1, _⟩ => rfl
    | ⟨2, _⟩ => rfl)).trans ?_
  refine (shapeCast_apply _ hc (ix3 b s (0 : Fin 1)) (ix2 b s) (by
      rw [Shape.rowMajor_val_two, Shape.rowMajor_val_three]
      show b.val * 32 + s.val = (b.val * 32 + s.val) * 1 + 0
      omega)).trans ?_
  rw [maximumf_apply, broadcast_apply]
  show max (Ideal.ofBits .f32 0xFF800000#32) _
    = max (Ideal.ofBits .f32 0xFF800000#32) (Finset.fold max (Ideal.ofBits .f32 0xFF800000#32) (sc s) Finset.univ)
  refine congrArg (fun z : EReal => max (Ideal.ofBits .f32 0xFF800000#32) z) ?_
  refine (Ideal.multiReduction_maximumf_single V _ hr hφ hacc (ix2 b s)).trans ?_
  have hl : (V ∘ hr.lift (ix2 b s)) = sc s := by
    funext u
    have hi : hr.lift (ix2 b s) u = ix3 b s u := funext fun a => Fin.ext (match a with
      | ⟨0, _⟩ => rfl
      | ⟨1, _⟩ => rfl
      | ⟨2, _⟩ => rfl)
    exact (congrArg V hi).trans (hV u)
  rw [hl]
  rfl

/-- The shifted scores of sentence `j` of row `p`, as the body leaves them (query position `s`, key position `t`). -/
theorem pay4_apply (P0 : Vec Ideal S128x2x32 .i32) (P1 : Vec Ideal S256x16 .f32) (P2 P3 : Vec Ideal S16x16 .f32)
    (h0 : ∀ i, (P0 i : BitVec 32).toNat < 256) (p : Fin 128) (j : Fin 2) (s t : Fin 32) :
    k0_pay4 (F := Ideal) P0 P1 P2 P3 (ix3 (sn p j) s t) = sentShift (mat P1) (mat P2) (mat P3) (sentOf P0 p j) s t := by
  unfold k0_pay4
  dsimp only
  show _ = shifted (score (lin (mat P2) (look (mat P1) (sentOf P0 p j))) (lin (mat P3) (look (mat P1) (sentOf P0 p j)))) s t
  exact shift_apply _ _ _ _ _ _ _ (sn p j) s t (fun u => score_apply P0 P1 P2 P3 h0 _ _ _ p j s u)

end Cert.KernelIdeal.Front

end
-- ==== Proof.KerBack.lean ====
import proofs.«406272_j1443109012058_2_alg».proof.Proof.Spec
import proofs.«406272_j1443109012058_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Back

open Cert.KernelIdeal Cert.KernelIdeal.Gen Idealize.ShloMosaic Idealize.ShloMosaic.TcCoe Idealize.ShloMosaic.ValueIdx Cert.SentSim

/-! ## Sums along one axis -/

/-- The sum over the last axis of a [256, 32, 32] array, read at (b, s): the plain sum over t. -/
private theorem sum_axis2 (x : FVec Ideal S256x32x32 .f32) (h : S256x32x32.Reduces [2] S256x32) (hφ : FKind.Formats .f32)
    (hacc : (0x00000000#32 : BitVec 32) = FKind.add.neutral .f32 hφ) (b : Fin 256) (s : Fin 32) :
    multiReduction (F := Ideal) .add [2] S256x32 x 0x00000000#32 h hφ hacc (ix2 b s) = ∑ t : Fin 32, x (ix3 b s t) := by
  refine (Ideal.multiReduction_add_single x _ h hφ hacc (ix2 b s)).trans ?_
  refine Finset.sum_congr rfl fun t _ => congrArg x ?_
  funext c
  match c with
  | ⟨0, _⟩ => rfl
  | ⟨1, _⟩ => rfl
  | ⟨2, _⟩ => rfl

/-- The sum over the middle axis of a [256, 32, 16] array, read at (b, e): the plain sum over s. -/
private theorem sum_axis1 (x : FVec Ideal S256x32x16 .f32) (h : S256x32x16.Reduces [1] S256x16) (hφ : FKind.Formats .f32)
    (hacc : (0x00000000#32 : BitVec 32) = FKind.add.neutral .f32 hφ) (b : Fin 256) (e : Fin 16) :
    multiReduction (F := Ideal) .add [1] S256x16 x 0x00000000#32 h hφ hacc (ix2 b e) = ∑ s : Fin 32, x (ix3 b s e) := by
  refine (Ideal.multiReduction_add_single x _ h hφ hacc (ix2 b e)).trans ?_
  refine Finset.sum_congr rfl fun s _ => congrArg x ?_
  funext c
  match c with
  | ⟨0, _⟩ => rfl
  | ⟨1, _⟩ => rfl
  | ⟨2, _⟩ => rfl

/-- The sum over the features of a [128, 16] array, read at p: the plain sum over e. -/
private theorem sum_feat (x : FVec Ideal S128x16 .f32) (h : S128x16.Reduces [1] S128) (hφ : FKind.Formats .f32)
    (hacc : (0x00000000#32 : BitVec 32) = FKind.add.neutral .f32 hφ) (p : Fin 128) :
    multiReduction (F := Ideal) .add [1] S128 x 0x00000000#32 h hφ hacc (ix1 p) = ∑ e : Fin 16, x (ix2 p e) := by
  refine (Ideal.multiReduction_add_single x _ h hφ hacc (ix1 p)).trans ?_
  refine Finset.sum_congr rfl fun e _ => congrArg x ?_
  funext c
  match c with
  | ⟨0, _⟩ => rfl
  | ⟨1, _⟩ => rfl

/-! ## Reshapes, the keepdims broadcast, the slices, the bias row -/

/-- [256, 32] cast to [256, 32, 1]: the entry (b, s, u) is the entry (b, s). -/
private theorem keep_cast (y : FVec Ideal S256x32 .f32) (h : S256x32.ShapeCasts S256x32x1) (b : Fin 256) (s : Fin 32) (u : Fin 1) :
    shapeCast S256x32x1 y h (ix3 b s u) = y (ix2 b s) :=
  shapeCast_apply y h _ _ (by
    have hu : u.val = 0 := by omega
    rw [Shape.rowMajor_val_two, Shape.rowMajor_val_three]
    show b.val * 32 + s.val = (b.val * 32 + s.val) * 1 + u.val
    omega)

/-- [256, 32, 1] broadcast to [256, 32, 32]: the entry (b, s, t) is the entry (b, s, 0). -/
private theorem keep_bcast (z : FVec Ideal S256x32x1 .f32) (h : S256x32x1.Broadcasts S256x32x32) (b : Fin 256) (s t : Fin 32) :
    broadcastTo S256x32x32 z h (ix3 b s t) = z (ix3 b s (0 : Fin 1)) := by
  refine broadcastTo_apply z h (ix3 b s t) (ix3 b s (0 : Fin 1)) fun ax => ?_
  match ax with
  | ⟨0, _⟩ => rfl
  | ⟨1, _⟩ => rfl
  | ⟨2, _⟩ => rfl

/-- [256, 32, 16] cast to [8192, 16]: row 32 b + s is position s of sentence b. -/
private theorem flat_cast {φ : FTy} (x : FVec Ideal S256x32x16 φ) (h : S256x32x16.ShapeCasts S8192x16) (r : Fin 8192) (e : Fin 16)
    (b : Fin 256) (s : Fin 32) (hr : r.val = 32 * b.val + s.val) :
    shapeCast S8192x16 x h (ix2 r e) = x (ix3 b s e) :=
  shapeCast_apply x h _ _ (by
    rw [Shape.rowMajor_val_two, Shape.rowMajor_val_three]
    show (b.val * 32 + s.val) * 16 + e.val = r.val * 16 + e.val
    omega)

/-- [8192, 16] cast to [256, 32, 16]: position s of sentence b is row 32 b + s. -/
private theorem unflat_cast {φ : FTy} (y : FVec Ideal S8192x16 φ) (h : S8192x16.ShapeCasts S256x32x16) (r : Fin 8192) (e : Fin 16)
    (b : Fin 256) (s : Fin 32) (hr : r.val = 32 * b.val + s.val) :
    shapeCast S256x32x16 y h (ix3 b s e) = y (ix2 r e) :=
  shapeCast_apply y h _ _ (by
    rw [Shape.rowMajor_val_two, Shape.rowMajor_val_three]
    show r.val * 16 + e.val = (b.val * 32 + s.val) * 16 + e.val
    omega)

/-- [256, 16] cast to [128, 2, 16]: the entry (p, j, e) is feature e of sentence 2 p + j. -/
private theorem pair_cast (x : FVec Ideal S256x16 .f32) (h : S256x16.ShapeCasts S128x2x16) (p : Fin 128) (j : Fin 2) (e : Fin 16) :
    shapeCast S128x2x16 x h (ix3 p j e) = x (ix2 (sn p j) e) :=
  shapeCast_apply x h _ _ (by
    rw [Shape.rowMajor_val_two, Shape.rowMajor_val_three]
    show (2 * p.val + j.val) * 16 + e.val = (p.val * 2 + j.val) * 16 + e.val
    omega)

/-- The slice [128, 1, 16] of a [128, 2, 16] array at offset o on the middle axis, cast to [128, 16]: the entry (p, e)
is the entry (p, j, e) with j = o. -/
private theorem half_apply (o : Nat) (x : FVec Ideal S128x2x16 .f32) (hs : S128x2x16.Slices ![0, o, 0] S128x1x16)
    (hc : S128x1x16.ShapeCasts S128x16) (p : Fin 128) (j : Fin 2) (hj : j.val = o) (e : Fin 16) :
    shapeCast S128x16 (extractStridedSlice S128x1x16 ![0, o, 0] x hs) hc (ix2 p e) = x (ix3 p j e) := by
  refine (shapeCast_apply _ hc (ix2 p e) (ix3 p (0 : Fin 1) e) (by
    rw [Shape.rowMajor_val_two, Shape.rowMajor_val_three]
    show (p.val * 1 + 0) * 16 + e.val = p.val * 16 + e.val
    omega)).trans ?_
  exact slice3_axis1_apply o x hs p (0 : Fin 1) e j (by rw [hj]; rfl)

/-- The bias: a [16] row cast to [1, 16] and broadcast over the 8192 rows reads, at (r, e), its entry e. -/
private theorem bias_apply (B : FVec Ideal S16 .f32) (hc : S16.ShapeCasts S1x16) (hb : S1x16.Broadcasts S8192x16) (r : Fin 8192) (e : Fin 16) :
    broadcastTo S8192x16 (shapeCast S1x16 B hc) hb (ix2 r e) = B (ix1 e) :=
  (broadcastTo_1b_ab_apply _ hb r e).trans (shapeCast_a_1a_apply B hc (0 : Fin 1) e)

/-! ## The two matrix products -/

/-! The batched product's operand indices, one axis at a time: the batch axis and the kept axis read the output
index, the contracted axis reads the contraction position. -/

private theorem mixl_0 (i : S256x32x16.Idx) (q : dot_S256x32x32_S256x32x16_S256x32x16_2_1_1_2_0_0.contr.Idx) :
    (dot_S256x32x32_S256x32x16_S256x32x16_2_1_1_2_0_0.lhsIdx i q 0).val = (i 0).val := by
  unfold DotDims.lhsIdx
  rw [dif_pos (show (0 : Fin S256x32x32.rank) ∈ dot_S256x32x32_S256x32x16_S256x32x16_2_1_1_2_0_0.lhsBatch by decide)]
  rfl
private theorem mixl_1 (i : S256x32x16.Idx) (q : dot_S256x32x32_S256x32x16_S256x32x16_2_1_1_2_0_0.contr.Idx) :
    (dot_S256x32x32_S256x32x16_S256x32x16_2_1_1_2_0_0.lhsIdx i q 1).val = (i 1).val := by
  unfold DotDims.lhsIdx
  rw [dif_neg (show ¬(1 : Fin S256x32x32.rank) ∈ dot_S256x32x32_S256x32x16_S256x32x16_2_1_1_2_0_0.lhsBatch by decide), dif_pos (show (1 : Fin S256x32x32.rank) ∈ dot_S256x32x32_S256x32x16_S256x32x16_2_1_1_2_0_0.lhsNonContracting by decide)]
  rfl
private theorem mixl_2 (i : S256x32x16.Idx) (q : dot_S256x32x32_S256x32x16_S256x32x16_2_1_1_2_0_0.contr.Idx) :
    (dot_S256x32x32_S256x32x16_S256x32x16_2_1_1_2_0_0.lhsIdx i q 2).val = (q ⟨0, by decide⟩).val :=
  dot_S256x32x32_S256x32x16_S256x32x16_2_1_1_2_0_0.lhsIdx_val_of_single rfl i q
private theorem mixr_0 (i : S256x32x16.Idx) (q : dot_S256x32x32_S256x32x16_S256x32x16_2_1_1_2_0_0.contr.Idx) :
    (dot_S256x32x32_S256x32x16_S256x32x16_2_1_1_2_0_0.rhsIdx i q 0).val = (i 0).val := by
  unfold DotDims.rhsIdx
  rw [dif_pos (show (0 : Fin S256x32x16.rank) ∈ dot_S256x32x32_S256x32x16_S256x32x16_2_1_1_2_0_0.rhsBatch by decide)]
  rfl
private theorem mixr_1 (i : S256x32x16.Idx) (q : dot_S256x32x32_S256x32x16_S256x32x16_2_1_1_2_0_0.contr.Idx) :
    (dot_S256x32x32_S256x32x16_S256x32x16_2_1_1_2_0_0.rhsIdx i q 1).val = (q ⟨0, by decide⟩).val :=
  dot_S256x32x32_S256x32x16_S256x32x16_2_1_1_2_0_0.rhsIdx_val_of_single rfl i q
private theorem mixr_2 (i : S256x32x16.Idx) (q : dot_S256x32x32_S256x32x16_S256x32x16_2_1_1_2_0_0.contr.Idx) :
    (dot_S256x32x32_S256x32x16_S256x32x16_2_1_1_2_0_0.rhsIdx i q 2).val = (i 2).val := by
  unfold DotDims.rhsIdx
  rw [dif_neg (show ¬(2 : Fin S256x32x16.rank) ∈ dot_S256x32x32_S256x32x16_S256x32x16_2_1_1_2_0_0.rhsBatch by decide), dif_pos (show (2 : Fin S256x32x16.rank) ∈ dot_S256x32x32_S256x32x16_S256x32x16_2_1_1_2_0_0.rhsNonContracting by decide)]
  rfl

/-- The batched product into the zero accumulator: entry (b, s, e) is ∑ t, P (b, s, t) * V (b, t, e); the sum over the
contraction index is re-indexed by its one coordinate t. -/
private theorem mix_apply (P : FVec Ideal S256x32x32 .bf16) (V : FVec Ideal S256x32x16 .bf16) (b : Fin 256) (s : Fin 32) (e : Fin 16) :
    matmul dot_S256x32x32_S256x32x16_S256x32x16_2_1_1_2_0_0 none P V (constant (F := Ideal) S256x32x16 .f32 0x00000000#32) (ix3 b s e)
      = ∑ t : Fin 32, P (ix3 b s t) * V (ix3 b t e) := by
  simp only [matmul]
  rw [Ideal.matmul_constant_zero_apply, ← Equiv.sum_comp (contrEquiv1 dot_S256x32x32_S256x32x16_S256x32x16_2_1_1_2_0_0 32 rfl rfl).symm]
  refine Finset.sum_congr rfl fun k _ => ?_
  have hk := contrEquiv1_symm_val dot_S256x32x32_S256x32x16_S256x32x16_2_1_1_2_0_0 32 rfl rfl k
  have el : dot_S256x32x32_S256x32x16_S256x32x16_2_1_1_2_0_0.lhsIdx (ix3 b s e) ((contrEquiv1 dot_S256x32x32_S256x32x16_S256x32x16_2_1_1_2_0_0 32 rfl rfl).symm k) = ix3 b s k := funext fun a => Fin.ext (by
    match a with
    | ⟨0, _⟩ => exact mixl_0 _ _
    | ⟨1, _⟩ => exact mixl_1 _ _
    | ⟨2, _⟩ => exact (mixl_2 _ _).trans hk)
  have er : dot_S256x32x32_S256x32x16_S256x32x16_2_1_1_2_0_0.rhsIdx (ix3 b s e) ((contrEquiv1 dot_S256x32x32_S256x32x16_S256x32x16_2_1_1_2_0_0 32 rfl rfl).symm k) = ix3 b k e := funext fun a => Fin.ext (by
    match a with
    | ⟨0, _⟩ => exact mixr_0 _ _
    | ⟨1, _⟩ => exact (mixr_1 _ _).trans hk
    | ⟨2, _⟩ => exact mixr_2 _ _)
  rw [el, er]

/-! The plain product's operand indices: rows × contraction times contraction × columns. -/

private theorem linl_0 (i : S8192x16.Idx) (q : dot_S8192x16_S16x16_S8192x16_1_0_0_1_n_n.contr.Idx) :
    (dot_S8192x16_S16x16_S8192x16_1_0_0_1_n_n.lhsIdx i q 0).val = (i 0).val := by
  unfold DotDims.lhsIdx
  rw [dif_neg (show ¬(0 : Fin S8192x16.rank) ∈ dot_S8192x16_S16x16_S8192x16_1_0_0_1_n_n.lhsBatch by decide), dif_pos (show (0 : Fin S8192x16.rank) ∈ dot_S8192x16_S16x16_S8192x16_1_0_0_1_n_n.lhsNonContracting by decide)]
  rfl
private theorem linl_1 (i : S8192x16.Idx) (q : dot_S8192x16_S16x16_S8192x16_1_0_0_1_n_n.contr.Idx) :
    (dot_S8192x16_S16x16_S8192x16_1_0_0_1_n_n.lhsIdx i q 1).val = (q ⟨0, by decide⟩).val :=
  dot_S8192x16_S16x16_S8192x16_1_0_0_1_n_n.lhsIdx_val_of_single rfl i q
private theorem linr_0 (i : S8192x16.Idx) (q : dot_S8192x16_S16x16_S8192x16_1_0_0_1_n_n.contr.Idx) :
    (dot_S8192x16_S16x16_S8192x16_1_0_0_1_n_n.rhsIdx i q 0).val = (q ⟨0, by decide⟩).val :=
  dot_S8192x16_S16x16_S8192x16_1_0_0_1_n_n.rhsIdx_val_of_single rfl i q
private theorem linr_1 (i : S8192x16.Idx) (q : dot_S8192x16_S16x16_S8192x16_1_0_0_1_n_n.contr.Idx) :
    (dot_S8192x16_S16x16_S8192x16_1_0_0_1_n_n.rhsIdx i q 1).val = (i 1).val := by
  unfold DotDims.rhsIdx
  rw [dif_neg (show ¬(1 : Fin S16x16.rank) ∈ dot_S8192x16_S16x16_S8192x16_1_0_0_1_n_n.rhsBatch by decide), dif_pos (show (1 : Fin S16x16.rank) ∈ dot_S8192x16_S16x16_S8192x16_1_0_0_1_n_n.rhsNonContracting by decide)]
  rfl

/-- The plain product into the zero accumulator: entry (r, e) is ∑ d, X (r, d) * M (d, e). -/
private theorem plain_apply (X : FVec Ideal S8192x16 .bf16) (M : FVec Ideal S16x16 .bf16) (r : Fin 8192) (e : Fin 16) :
    matmul dot_S8192x16_S16x16_S8192x16_1_0_0_1_n_n none X M (constant (F := Ideal) S8192x16 .f32 0x00000000#32) (ix2 r e)
      = ∑ d : Fin 16, X (ix2 r d) * M (ix2 d e) := by
  simp only [matmul]
  rw [Ideal.matmul_constant_zero_apply, ← Equiv.sum_comp (contrEquiv1 dot_S8192x16_S16x16_S8192x16_1_0_0_1_n_n 16 rfl rfl).symm]
  refine Finset.sum_congr rfl fun k _ => ?_
  have hk := contrEquiv1_symm_val dot_S8192x16_S16x16_S8192x16_1_0_0_1_n_n 16 rfl rfl k
  have el : dot_S8192x16_S16x16_S8192x16_1_0_0_1_n_n.lhsIdx (ix2 r e) ((contrEquiv1 dot_S8192x16_S16x16_S8192x16_1_0_0_1_n_n 16 rfl rfl).symm k) = ix2 r k := funext fun a => Fin.ext (by
    match a with
    | ⟨0, _⟩ => exact linl_0 _ _
    | ⟨1, _⟩ => exact (linl_1 _ _).trans hk)
  have er : dot_S8192x16_S16x16_S8192x16_1_0_0_1_n_n.rhsIdx (ix2 r e) ((contrEquiv1 dot_S8192x16_S16x16_S8192x16_1_0_0_1_n_n 16 rfl rfl).symm k) = ix2 k e := funext fun a => Fin.ext (by
    match a with
    | ⟨0, _⟩ => exact (linr_0 _ _).trans hk
    | ⟨1, _⟩ => exact linr_1 _ _)
  rw [el, er]

/-! ## The stages -/

/-- Row 32 b + s of the flat [8192, 16] arrays. -/
private def flatRow (b : Fin 256) (s : Fin 32) : Fin 8192 := ⟨32 * b.val + s.val, by omega⟩

/-- A quotient by a splat word, entry by entry. -/
private theorem div_word_apply {S : Shape} (x : FVec Ideal S .f32) (w : BitVec 32) (i : S.Idx) :
    divf x (broadcast S (Scalar.ofBits (F := Ideal) .f32 w)) i = Ideal.div (x i) (Ideal.ofBits .f32 w) := rfl

/-- The maximum with a splat word, then the (identity) rounding to bf16, entry by entry. -/
private theorem max_word_apply {S : Shape} (x : FVec Ideal S .f32) (w : BitVec 32) (hlt : FTy.bits .bf16 < FTy.bits .f32) (i : S.Idx) :
    truncf .bf16 (maximumf x (broadcast S (Scalar.ofBits (F := Ideal) .f32 w))) hlt i = max (x i) (Ideal.ofBits .f32 w) := rfl

/-- The rounding to bf16 is the identity on the extended reals, entry by entry. -/
private theorem round_apply {S : Shape} (x : FVec Ideal S .f32) (hlt : FTy.bits .bf16 < FTy.bits .f32) (i : S.Idx) :
    truncf .bf16 x hlt i = x i := rfl

/-- The softmax of the shifted scores: exp, the row sums kept as a unit axis and broadcast back, the quotient. -/
private theorem soft_apply (d : FVec Ideal S256x32x32 .f32) (hr : S256x32x32.Reduces [2] S256x32) (hφ : FKind.Formats .f32)
    (hacc : (0x00000000#32 : BitVec 32) = FKind.add.neutral .f32 hφ) (hc : S256x32.ShapeCasts S256x32x1)
    (hb : S256x32x1.Broadcasts S256x32x32) (b : Fin 256) (s t : Fin 32) :
    divf (exp d) (broadcastTo S256x32x32 (shapeCast S256x32x1
        (multiReduction (F := Ideal) .add [2] S256x32 (exp d) 0x00000000#32 hr hφ hacc) hc) hb) (ix3 b s t)
      = softm (fun s t => d (ix3 b s t)) s t := by
  refine (divf_apply _ _ _).trans ?_
  unfold SentSim.softm
  refine congrArg₂ Ideal.div rfl ?_
  exact (keep_bcast _ hb b s t).trans ((keep_cast _ hc b s 0).trans (sum_axis2 _ hr hφ hacc b s))

/-- One affine layer on the flat rows: the product with the transposed weight plus the bias row; entry (r, e) is
∑ d, X (r, d) * W (e, d) + B e. -/
private theorem dense_apply (X : FVec Ideal S8192x16 .bf16) (W : FVec Ideal S16x16 .f32) (B : FVec Ideal S16 .f32)
    (hlt : FTy.bits .bf16 < FTy.bits .f32) (ht : S16x16.Transposes [1, 0] S16x16) (hc : S16.ShapeCasts S1x16)
    (hb : S1x16.Broadcasts S8192x16) (r : Fin 8192) (e : Fin 16) :
    addf (matmul dot_S8192x16_S16x16_S8192x16_1_0_0_1_n_n none X (transpose S16x16 [1, 0] (truncf .bf16 W hlt) ht)
          (constant (F := Ideal) S8192x16 .f32 0x00000000#32))
        (broadcastTo S8192x16 (shapeCast S1x16 B hc) hb) (ix2 r e)
      = (∑ d : Fin 16, X (ix2 r d) * mat W e d) + vec B e := by
  refine (addf_apply _ _ _).trans ?_
  refine congrArg₂ (· + ·) ((plain_apply X _ r e).trans (Finset.sum_congr rfl fun d _ => congrArg (X (ix2 r d) * ·) ?_))
    (bias_apply B hc hb r e)
  exact transpose_ix2_apply _ ht d e

/-- The encoder's last payload: entry (p, j, e) is feature e of the mean of the perceptron's outputs over the 32
positions of sentence 2 p + j. Read from the outside in: the pairing reshape, the quotient by 32, the sum over the
positions, the reshape back, the output layer, the hidden layer with its maximum with 0, the flattening reshape, the
mixing product, the softmax. -/
private theorem pay5_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32)
    (p : Fin 128) (j : Fin 2) (e : Fin 16) :
    k0_pay5 (F := Ideal) v30 v39 P5 P6 P7 P8 (ix3 p j e)
      = tail (mat P5) (vec P6) (mat P7) (vec P8) (fun s t => v39 (ix3 (sn p j) s t)) (fun t e => v30 (ix3 (sn p j) t e)) e := by
  unfold k0_pay5
  refine (pair_cast _ _ p j e).trans ?_
  refine (div_word_apply _ _ _).trans ?_
  unfold SentSim.tail SentSim.meanv
  refine congrArg₂ Ideal.div ?_ rfl
  refine (sum_axis1 _ _ _ _ (sn p j) e).trans (Finset.sum_congr rfl fun s _ => ?_)
  refine (unflat_cast _ _ (flatRow (sn p j) s) e (sn p j) s rfl).trans ?_
  refine (dense_apply _ P7 P8 _ _ _ _ (flatRow (sn p j) s) e).trans ?_
  unfold SentSim.outp SentSim.lin
  refine congrArg₂ (· + ·) (Finset.sum_congr rfl fun d _ => congrArg (· * mat P7 e d) ?_) rfl
  refine (max_word_apply _ _ _ _).trans ?_
  unfold SentSim.hidden
  refine congrArg₂ max ?_ rfl
  refine (dense_apply _ P5 P6 _ _ _ _ (flatRow (sn p j) s) d).trans ?_
  unfold SentSim.lin
  refine congrArg₂ (· + ·) (Finset.sum_congr rfl fun d' _ => congrArg (· * mat P5 d d') ?_) rfl
  refine (round_apply _ _ _).trans ?_
  refine (flat_cast _ _ (flatRow (sn p j) s) d' (sn p j) s rfl).trans ?_
  refine (mix_apply _ _ (sn p j) s d').trans ?_
  unfold SentSim.mix
  refine Finset.sum_congr rfl fun t _ => congrArg (· * v30 (ix3 (sn p j) t d')) ?_
  refine (round_apply _ _ _).trans ?_
  exact soft_apply v39 _ _ _ _ _ (sn p j) s t

/-- The first sentence of each row: the slice at offset 0 of the pairs. -/
private theorem pay6_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32)
    (p : Fin 128) (e : Fin 16) :
    k0_pay6 (F := Ideal) v30 v39 P5 P6 P7 P8 (ix2 p e)
      = tail (mat P5) (vec P6) (mat P7) (vec P8) (fun s t => v39 (ix3 (sn p 0) s t)) (fun t e => v30 (ix3 (sn p 0) t e)) e := by
  unfold k0_pay6
  exact (half_apply 0 _ _ _ p (0 : Fin 2) rfl e).trans (pay5_apply v30 v39 P5 P6 P7 P8 p 0 e)

/-- The second sentence of each row: the slice at offset 1 of the pairs. -/
private theorem pay7_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32)
    (p : Fin 128) (e : Fin 16) :
    k0_pay7 (F := Ideal) v30 v39 P5 P6 P7 P8 (ix2 p e)
      = tail (mat P5) (vec P6) (mat P7) (vec P8) (fun s t => v39 (ix3 (sn p 1) s t)) (fun t e => v30 (ix3 (sn p 1) t e)) e := by
  unfold k0_pay7
  exact (half_apply 1 _ _ _ p (1 : Fin 2) rfl e).trans (pay5_apply v30 v39 P5 P6 P7 P8 p 1 e)

/-- The square root of a vector, entry by entry. -/
private theorem sqrt_word_apply {S : Shape} (x : FVec Ideal S .f32) (i : S.Idx) : sqrt x i = Ideal.sqrt (x i) := rfl

/-- The inner product of the two encodings of row p. -/
private theorem pay8_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32) (p : Fin 128) :
    k0_pay8 (F := Ideal) v30 v39 P5 P6 P7 P8 (ix1 p)
      = ∑ e : Fin 16,
          tail (mat P5) (vec P6) (mat P7) (vec P8) (fun s t => v39 (ix3 (sn p 0) s t)) (fun t e => v30 (ix3 (sn p 0) t e)) e
          * tail (mat P5) (vec P6) (mat P7) (vec P8) (fun s t => v39 (ix3 (sn p 1) s t)) (fun t e => v30 (ix3 (sn p 1) t e)) e := by
  unfold k0_pay8
  refine (sum_feat _ _ _ _ p).trans (Finset.sum_congr rfl fun e _ => ?_)
  exact (mulf_apply _ _ _).trans (congrArg₂ (· * ·) (pay6_apply v30 v39 P5 P6 P7 P8 p e) (pay7_apply v30 v39 P5 P6 P7 P8 p e))

/-- The norm of the first encoding of row p. -/
private theorem pay9_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32) (p : Fin 128) :
    k0_pay9 (F := Ideal) v30 v39 P5 P6 P7 P8 (ix1 p)
      = Ideal.sqrt (∑ e : Fin 16,
          tail (mat P5) (vec P6) (mat P7) (vec P8) (fun s t => v39 (ix3 (sn p 0) s t)) (fun t e => v30 (ix3 (sn p 0) t e)) e
          * tail (mat P5) (vec P6) (mat P7) (vec P8) (fun s t => v39 (ix3 (sn p 0) s t)) (fun t e => v30 (ix3 (sn p 0) t e)) e) := by
  unfold k0_pay9
  refine (sqrt_word_apply _ _).trans (congrArg Ideal.sqrt ?_)
  refine (sum_feat _ _ _ _ p).trans (Finset.sum_congr rfl fun e _ => ?_)
  exact (mulf_apply _ _ _).trans (congrArg₂ (· * ·) (pay6_apply v30 v39 P5 P6 P7 P8 p e) (pay6_apply v30 v39 P5 P6 P7 P8 p e))

/-- The squared norm of the second encoding of row p. -/
private theorem pay10_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32) (p : Fin 128) :
    k0_pay10 (F := Ideal) v30 v39 P5 P6 P7 P8 (ix1 p)
      = ∑ e : Fin 16,
          tail (mat P5) (vec P6) (mat P7) (vec P8) (fun s t => v39 (ix3 (sn p 1) s t)) (fun t e => v30 (ix3 (sn p 1) t e)) e
          * tail (mat P5) (vec P6) (mat P7) (vec P8) (fun s t => v39 (ix3 (sn p 1) s t)) (fun t e => v30 (ix3 (sn p 1) t e)) e := by
  unfold k0_pay10
  refine (sum_feat _ _ _ _ p).trans (Finset.sum_congr rfl fun e _ => ?_)
  exact (mulf_apply _ _ _).trans (congrArg₂ (· * ·) (pay7_apply v30 v39 P5 P6 P7 P8 p e) (pay7_apply v30 v39 P5 P6 P7 P8 p e))

/-- The last payload, entry by entry: the quotient by the product of the norms plus the small word, plus the word of 1,
times the word of 0.5. -/
private theorem pay1_apply (a b c : FVec Ideal S128 .f32) (i : S128.Idx) :
    k0_pay1 (F := Ideal) a b c i
      = (Ideal.div (a i) (b i * Ideal.sqrt (c i) + Ideal.ofBits .f32 0x322BCC77#32) + Ideal.ofBits .f32 0x3F800000#32)
          * Ideal.ofBits .f32 0x3F000000#32 := rfl

/-- From the values `v30` and the shifted scores `v39` of the block's 256 sentences to the block's result at row `p`. -/
theorem tail_apply (v30 : FVec Ideal S256x32x16 .bf16) (v39 : FVec Ideal S256x32x32 .f32)
    (P5 : Vec Ideal S16x16 .f32) (P6 : Vec Ideal S16 .f32) (P7 : Vec Ideal S16x16 .f32) (P8 : Vec Ideal S16 .f32) (p : Fin 128) :
    k0_pay1 (F := Ideal) (k0_pay8 v30 v39 P5 P6 P7 P8) (k0_pay9 v30 v39 P5 P6 P7 P8) (k0_pay10 v30 v39 P5 P6 P7 P8) (ix1 p)
      = simMul
          (tail (mat P5) (vec P6) (mat P7) (vec P8) (fun s t => v39 (ix3 (sn p 0) s t)) (fun t e => v30 (ix3 (sn p 0) t e)))
          (tail (mat P5) (vec P6) (mat P7) (vec P8) (fun s t => v39 (ix3 (sn p 1) s t)) (fun t e => v30 (ix3 (sn p 1) t e))) := by
  refine (pay1_apply _ _ _ _).trans ?_
  rw [pay8_apply, pay9_apply, pay10_apply]
  rfl

end Cert.KernelIdeal.Back

end
-- ==== Proof.KerRow.lean ====
/-
  One row of one block, whole: the body's result at row `p` of a block is the similarity of the encodings of the row's two
  sentences, read off the block of token words and the eight weight arrays. The values and the shifted scores of the
  block's sentences (the first half of the body) are put under the rest of the body (softmax, mixing, perceptron, mean,
  cosine), sentence by sentence.
-/
import proofs.«406272_j1443109012058_2_alg».proof.Proof.KerFront
import proofs.«406272_j1443109012058_2_alg».proof.Proof.KerBack

noncomputable section

namespace Cert.KernelIdeal.Row

open Cert.KernelIdeal Cert.KernelIdeal.Gen Idealize.ShloMosaic Idealize.ShloMosaic.TcCoe Idealize.ShloMosaic.ValueIdx Cert.SentSim

/-- The body's stored vector at row `p`, for token words in range: `simMul` of the two sentences' encodings. -/
theorem row_apply (P0 : Vec Ideal S128x2x32 .i32) (P1 : Vec Ideal S256x16 .f32) (P2 P3 P4 P5 : Vec Ideal S16x16 .f32)
    (P6 : Vec Ideal S16 .f32) (P7 : Vec Ideal S16x16 .f32) (P8 : Vec Ideal S16 .f32)
    (h0 : ∀ i, (P0 i : BitVec 32).toNat < 256) (p : Fin 128) :
    k0_pay1 (F := Ideal) (k0_pay8 (k0_pay3 P0 P1 P4) (k0_pay4 P0 P1 P2 P3) P5 P6 P7 P8)
        (k0_pay9 (k0_pay3 P0 P1 P4) (k0_pay4 P0 P1 P2 P3) P5 P6 P7 P8)
        (k0_pay10 (k0_pay3 P0 P1 P4) (k0_pay4 P0 P1 P2 P3) P5 P6 P7 P8) (ix1 p)
      = simMul (enc (mat P1) (mat P2) (mat P3) (mat P4) (mat P5) (vec P6) (mat P7) (vec P8) (sentOf P0 p 0))
          (enc (mat P1) (mat P2) (mat P3) (mat P4) (mat P5) (vec P6) (mat P7) (vec P8) (sentOf P0 p 1)) := by
  refine (Back.tail_apply (k0_pay3 P0 P1 P4) (k0_pay4 P0 P1 P2 P3) P5 P6 P7 P8 p).trans ?_
  have hs : ∀ j : Fin 2, (fun s t => k0_pay4 (F := Ideal) P0 P1 P2 P3 (ix3 (sn p j) s t))
      = sentShift (mat P1) (mat P2) (mat P3) (sentOf P0 p j) :=
    fun j => funext fun s => funext fun t => Front.pay4_apply P0 P1 P2 P3 h0 p j s t
  have hv : ∀ j : Fin 2, (fun t e => k0_pay3 (F := Ideal) P0 P1 P4 (ix3 (sn p j) t e))
      = sentVal (mat P1) (mat P4) (sentOf P0 p j) :=
    fun j => funext fun t => funext fun e => Front.pay3_apply P0 P1 P4 h0 p j t e
  rw [hs 0, hv 0, hs 1, hv 1]
  rfl

end Cert.KernelIdeal.Row

end
-- ==== Proof.KerWhole.lean ====
/-
  From blocks to the array. Grid point `t` (of 256) stages rows 128 t … 128 t + 127 of the token array and the eight
  weight arrays whole, and writes back the 128 results of those rows; the 256 blocks tile the 32768 results. So the
  result array after the run is ONE function of the argument arrays: at row `b`, the similarity of the encodings of the two
  sentences of row `b`.
-/
import proofs.«406272_j1443109012058_2_alg».proof.Proof.Gen.KernelIdeal.Value
import proofs.«406272_j1443109012058_2_alg».proof.Proof.KerRow

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.SentSim
open Idealize.ShloMosaic.Pipeline (Dat)

/-- The similarity of row `b` (last step: a product with 0.5), from the argument arrays. -/
def rowSim (a0 : Vec Ideal S32768x2x32 .i32) (a1 : Vec Ideal S256x16 .f32) (a2 a3 a4 a5 : Vec Ideal S16x16 .f32)
    (a6 : Vec Ideal S16 .f32) (a7 : Vec Ideal S16x16 .f32) (a8 : Vec Ideal S16 .f32) (b : Fin 32768) : EReal :=
  simMul (enc (mat a1) (mat a2) (mat a3) (mat a4) (mat a5) (vec a6) (mat a7) (vec a8) (sentOf a0 b 0))
    (enc (mat a1) (mat a2) (mat a3) (mat a4) (mat a5) (vec a6) (mat a7) (vec a8) (sentOf a0 b 1))

/-- The result array as one function of the argument arrays. -/
def G (a0 : Vec Ideal S32768x2x32 .i32) (a1 : Vec Ideal S256x16 .f32) (a2 a3 a4 a5 : Vec Ideal S16x16 .f32)
    (a6 : Vec Ideal S16 .f32) (a7 : Vec Ideal S16x16 .f32) (a8 : Vec Ideal S16 .f32) : Vec Ideal S32768 .f32 :=
  fun i => rowSim a0 a1 a2 a3 a4 a5 a6 a7 a8 (i 0)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The argument arrays as the region finds them, at their literal types. -/
abbrev tokA (c : Dev nD) : Vec Ideal S32768x2x32 .i32 := V m c main_arg0
abbrev embA (c : Dev nD) : Vec Ideal S256x16 .f32 := V m c main_arg1
abbrev wqA (c : Dev nD) : Vec Ideal S16x16 .f32 := V m c main_arg2
abbrev wkA (c : Dev nD) : Vec Ideal S16x16 .f32 := V m c main_arg3
abbrev wvA (c : Dev nD) : Vec Ideal S16x16 .f32 := V m c main_arg4
abbrev w1A (c : Dev nD) : Vec Ideal S16x16 .f32 := V m c main_arg5
abbrev b1A (c : Dev nD) : Vec Ideal S16 .f32 := V m c main_arg6
abbrev w2A (c : Dev nD) : Vec Ideal S16x16 .f32 := V m c main_arg7
abbrev b2A (c : Dev nD) : Vec Ideal S16 .f32 := V m c main_arg8

/-- The blocks of the nine input windows at point `t`, at their literal types. -/
abbrev tokB (c : Dev nD) (t : Fin cfg0.N) : Vec Ideal S128x2x32 .i32 := iblk m c 0 t
abbrev embB (c : Dev nD) (t : Fin cfg0.N) : Vec Ideal S256x16 .f32 := iblk m c 1 t
abbrev wqB (c : Dev nD) (t : Fin cfg0.N) : Vec Ideal S16x16 .f32 := iblk m c 2 t
abbrev wkB (c : Dev nD) (t : Fin cfg0.N) : Vec Ideal S16x16 .f32 := iblk m c 3 t
abbrev wvB (c : Dev nD) (t : Fin cfg0.N) : Vec Ideal S16x16 .f32 := iblk m c 4 t
abbrev w1B (c : Dev nD) (t : Fin cfg0.N) : Vec Ideal S16x16 .f32 := iblk m c 5 t
abbrev b1B (c : Dev nD) (t : Fin cfg0.N) : Vec Ideal S16 .f32 := iblk m c 6 t
abbrev w2B (c : Dev nD) (t : Fin cfg0.N) : Vec Ideal S16x16 .f32 := iblk m c 7 t
abbrev b2B (c : Dev nD) (t : Fin cfg0.N) : Vec Ideal S16 .f32 := iblk m c 8 t

/-- The printed index maps, decided over the 256 grid points: the token window and the result window move with the
    point along axis 0; the eight weight windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = t.val :=
  (by decide +kernel : ∀ t : Fin grid0.N, _)

/-- Row `p` of block `t` is row `128 t + p` of the array. -/
def gRow (t : Fin cfg0.N) (p : Fin 128) : Fin 32768 :=
  ⟨128 * t.val + p.val, by have ht : t.val < 256 := t.isLt; have hp := p.isLt; omega⟩

/-- The token block at point `t` holds rows `128 t …` of the token array. -/
theorem tokB_apply (c : Dev nD) (t : Fin cfg0.N) (p : Fin 128) (j : Fin 2) (s : Fin 32) :
    tokB m c t (ix3 p j s) = tokA m c (ix3 (gRow t p) j s) := by
  show V m c main_arg0 (((cfg0.win 0).blk t).view.emb (ix3 p j s)) = V m c main_arg0 (ix3 (gRow t p) j s)
  refine congrArg _ ?_
  obtain ⟨e0, e1, e2, -⟩ := idx_facts t
  funext a; apply Fin.ext
  match a with
  | ⟨0, _⟩ => show win0_0.index t (0 : Fin 3) * 128 + 1 * p.val = 128 * t.val + p.val; omega
  | ⟨1, _⟩ => show win0_0.index t (1 : Fin 3) * 2 + 1 * j.val = j.val; omega
  | ⟨2, _⟩ => show win0_0.index t (2 : Fin 3) * 32 + 1 * s.val = s.val; omega

theorem sentOf_tokB (c : Dev nD) (t : Fin cfg0.N) (p : Fin 128) (j : Fin 2) :
    sentOf (tokB m c t) p j = sentOf (tokA m c) (gRow t p) j :=
  funext fun s => tokB_apply m c t p j s

/-- Each weight window's block is its whole array, at every point. -/
theorem embB_eq (c : Dev nD) (t : Fin cfg0.N) : embB m c t = embA m c := by
  funext x
  show V m c main_arg1 (((cfg0.win 1).blk t).view.emb x) = V m c main_arg1 x
  refine congrArg _ ?_
  obtain ⟨-, -, -, e0, e1, -⟩ := idx_facts t
  funext a; apply Fin.ext
  match a with
  | ⟨0, _⟩ => show win0_1.index t (0 : Fin 2) * 256 + 1 * (x 0).val = (x 0).val; omega
  | ⟨1, _⟩ => show win0_1.index t (1 : Fin 2) * 16 + 1 * (x 1).val = (x 1).val; omega

theorem wqB_eq (c : Dev nD) (t : Fin cfg0.N) : wqB m c t = wqA m c := by
  funext x
  show V m c main_arg2 (((cfg0.win 2).blk t).view.emb x) = V m c main_arg2 x
  refine congrArg _ ?_
  obtain ⟨-, -, -, -, -, e0, e1, -⟩ := idx_facts t
  funext a; apply Fin.ext
  match a with
  | ⟨0, _⟩ => show win0_2.index t (0 : Fin 2) * 16 + 1 * (x 0).val = (x 0).val; omega
  | ⟨1, _⟩ => show win0_2.index t (1 : Fin 2) * 16 + 1 * (x 1).val = (x 1).val; omega

theorem wkB_eq (c : Dev nD) (t : Fin cfg0.N) : wkB m c t = wkA m c := by
  funext x
  show V m c main_arg3 (((cfg0.win 3).blk t).view.emb x) = V m c main_arg3 x
  refine congrArg _ ?_
  obtain ⟨-, -, -, -, -, -, -, e0, e1, -⟩ := idx_facts t
  funext a; apply Fin.ext
  match a with
  | ⟨0, _⟩ => show win0_3.index t (0 : Fin 2) * 16 + 1 * (x 0).val = (x 0).val; omega
  | ⟨1, _⟩ => show win0_3.index t (1 : Fin 2) * 16 + 1 * (x 1).val = (x 1).val; omega

theorem wvB_eq (c : Dev nD) (t : Fin cfg0.N) : wvB m c t = wvA m c := by
  funext x
  show V m c main_arg4 (((cfg0.win 4).blk t).view.emb x) = V m c main_arg4 x
  refine congrArg _ ?_
  obtain ⟨-, -, -, -, -, -, -, -, -, e0, e1, -⟩ := idx_facts t
  funext a; apply Fin.ext
  match a with
  | ⟨0, _⟩ => show win0_4.index t (0 : Fin 2) * 16 + 1 * (x 0).val = (x 0).val; omega
  | ⟨1, _⟩ => show win0_4.index t (1 : Fin 2) * 16 + 1 * (x 1).val = (x 1).val; omega

theorem w1B_eq (c : Dev nD) (t : Fin cfg0.N) : w1B m c t = w1A m c := by
  funext x
  show V m c main_arg5 (((cfg0.win 5).blk t).view.emb x) = V m c main_arg5 x
  refine congrArg _ ?_
  obtain ⟨-, -, -, -, -, -, -, -, -, -, -, e0, e1, -⟩ := idx_facts t
  funext a; apply Fin.ext
  match a with
  | ⟨0, _⟩ => show win0_5.index t (0 : Fin 2) * 16 + 1 * (x 0).val = (x 0).val; omega
  | ⟨1, _⟩ => show win0_5.index t (1 : Fin 2) * 16 + 1 * (x 1).val = (x 1).val; omega

theorem b1B_eq (c : Dev nD) (t : Fin cfg0.N) : b1B m c t = b1A m c := by
  funext x
  show V m c main_arg6 (((cfg0.win 6).blk t).view.emb x) = V m c main_arg6 x
  refine congrArg _ ?_
  obtain ⟨-, -, -, -, -, -, -, -, -, -, -, -, -, e0, -⟩ := idx_facts t
  funext a; apply Fin.ext
  match a with
  | ⟨0, _⟩ => show win0_6.index t (0 : Fin 1) * 16 + 1 * (x 0).val = (x 0).val; omega

theorem w2B_eq (c : Dev nD) (t : Fin cfg0.N) : w2B m c t = w2A m c := by
  funext x
  show V m c main_arg7 (((cfg0.win 7).blk t).view.emb x) = V m c main_arg7 x
  refine congrArg _ ?_
  obtain ⟨-, -, -, -, -, -, -, -, -, -, -, -, -, -, e0, e1, -⟩ := idx_facts t
  funext a; apply Fin.ext
  match a with
  | ⟨0, _⟩ => show win0_7.index t (0 : Fin 2) * 16 + 1 * (x 0).val = (x 0).val; omega
  | ⟨1, _⟩ => show win0_7.index t (1 : Fin 2) * 16 + 1 * (x 1).val = (x 1).val; omega

theorem b2B_eq (c : Dev nD) (t : Fin cfg0.N) : b2B m c t = b2A m c := by
  funext x
  show V m c main_arg8 (((cfg0.win 8).blk t).view.emb x) = V m c main_arg8 x
  refine congrArg _ ?_
  obtain ⟨-, -, -, -, -, -, -, -, -, -, -, -, -, -, -, -, e0, -⟩ := idx_facts t
  funext a; apply Fin.ext
  match a with
  | ⟨0, _⟩ => show win0_8.index t (0 : Fin 1) * 16 + 1 * (x 0).val = (x 0).val; omega

/-- Index `p` of the result block at point `t` is index `128 t + p` of the result array. -/
theorem out_emb (t : Fin cfg0.N) (p : Fin 128) :
    ((cfg0.win 9).blk t).view.emb (ix1 p) = ix1 (gRow t p) := by
  obtain ⟨-, -, -, -, -, -, -, -, -, -, -, -, -, -, -, -, -, e0⟩ := idx_facts t
  funext a; apply Fin.ext
  match a with
  | ⟨0, _⟩ => show win0_9.index t (0 : Fin 1) * 128 + 1 * p.val = 128 * t.val + p.val; omega

/-- WHAT POINT `t` WRITES BACK is block `t` of `G` of the argument arrays, when every token word is in range. -/
theorem flushed_eq (htok : ∀ (c : Dev nD) i, (tokA m c i : BitVec 32).toNat < 256) (c : Dev nD) (t : Fin cfg0.N) :
    (dats m 0 c).flushed 9 t = ((cfg0.win 9).blk t).view.read (Elt Ideal)
      (G (tokA m c) (embA m c) (wqA m c) (wkA m c) (wvA m c) (w1A m c) (b1A m c) (w2A m c) (b2A m c)) := by
  show (cfg0.win 9).cut (grid0.coords t) ((dats m 0 c).after 9 t) = _
  rw [after0_9]
  unfold out0_9
  rw [View.canon_unit_zero hz1]
  simp only [View.ld_unit_zero (S := S128x2x32) hz3, View.ld_unit_zero (S := S256x16) hz2,
    View.ld_unit_zero (S := S16x16) hz2, View.ld_unit_zero (S := S16) hz1]
  funext y
  obtain ⟨p, rfl⟩ : ∃ p : Fin 128, y = ix1 p := ⟨y 0, eq_ix1 y⟩
  have h0 : ∀ i, (tokB m c t i : BitVec 32).toNat < 256 := fun i => htok c _
  refine (Row.row_apply (tokB m c t) (embB m c t) (wqB m c t) (wkB m c t) (wvB m c t) (w1B m c t) (b1B m c t)
    (w2B m c t) (b2B m c t) h0 p).trans ?_
  rw [embB_eq, wqB_eq, wkB_eq, wvB_eq, w1B_eq, b1B_eq, w2B_eq, b2B_eq, sentOf_tokB, sentOf_tokB]
  show _ = G (tokA m c) (embA m c) (wqA m c) (wkA m c) (wvA m c) (w1A m c) (b1A m c) (w2A m c) (b2A m c)
    (((cfg0.win 9).blk t).view.emb (ix1 p))
  rw [out_emb]
  rfl

/-- An index of the result array is in point `t`'s block iff it is one of the block's 128 rows. -/
theorem mem_blk (t : Fin cfg0.N) (i : S32768.Idx) :
    i ∈ ((cfg0.win 9).blk t).view.set ↔ ∀ a : Fin 1, win0_9.index t a * S128.size a ≤ (i a).val ∧ (i a).val < win0_9.index t a * S128.size a + S128.size a := by
  show i ∈ ((View.whole main_v0).slice (win0_9.rect t)).set ↔ _
  rw [View.set_slice_whole, Rect.mem_set_unit]
  exact Iff.rfl

/-- Every result index is in the block of the point `⌊i / 128⌋`. -/
theorem cover (i : S32768.Idx) : ∃ t : Fin cfg0.N, (cfg0.win 9).flush t = true ∧ i ∈ ((cfg0.win 9).blk t).view.set := by
  have hi : (i 0).val < 32768 := (i 0).isLt
  refine ⟨⟨(i 0).val / 128, by show (i 0).val / 128 < 256; omega⟩, flush0_9 _, ?_⟩
  rw [mem_blk]
  obtain ⟨-, -, -, -, -, -, -, -, -, -, -, -, -, -, -, -, -, e0⟩ := idx_facts ⟨(i 0).val / 128, by show (i 0).val / 128 < 256; omega⟩
  intro a
  match a with
  | ⟨0, _⟩ =>
    show win0_9.index ⟨(i 0).val / 128, _⟩ (0 : Fin 1) * 128 ≤ (i 0).val ∧ (i 0).val < win0_9.index ⟨(i 0).val / 128, _⟩ (0 : Fin 1) * 128 + 128
    rw [e0]
    show (i 0).val / 128 * 128 ≤ (i 0).val ∧ (i 0).val < (i 0).val / 128 * 128 + 128
    omega

/-- THE RESULT ARRAY after the run is `G` of the argument arrays. -/
theorem final (htok : ∀ (c : Dev nD) i, (tokA m c i : BitVec 32).toNat < 256) (c : Dev nD) :
    (dats m 0 c).arrAt 9 cfg0.N
      = G (tokA m c) (embA m c) (wqA m c) (wkA m c) (wvA m c) (w1A m c) (b1A m c) (w2A m c) (b2A m c) :=
  (dats m 0 c).arrAt_eq_of_cover 9 _ (fun t _ => flushed_eq m htok c t) cover

/-- The run, read: the result array is `G` of the arguments, and the arguments are unchanged. -/
theorem run (htok : ∀ (c : Dev nD) i, (tokA m c i : BitVec 32).toNat < 256) :
    θ_run defs (onTc (τ := τ) (main (F := Ideal))) ⟨m, fun _ => 0, ρ⟩ fun r => ∀ c : Dev nD,
      r.2.mem ((c : Thread nD τ).loc main_v0)
        = G (tokA m c) (embA m c) (wqA m c) (wkA m c) (wvA m c) (w1A m c) (b1A m c) (w2A m c) (b2A m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m htok c), (h c).2⟩) (run_blocks m ρ)

end Cert.KernelIdeal.Whole

end
-- ==== Proof.RefFront.lean ====
import proofs.«406272_j1443109012058_2_alg».proof.Proof.Spec
import proofs.«406272_j1443109012058_2_alg».proof.Proof.Gen.ReferenceIdeal.Read
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.Front

open Cert.ReferenceIdeal Cert.ReferenceIdeal.Gen Cert.ReferenceIdeal.Read Idealize.ShloMosaic Idealize.ShloMosaic.TcCoe Idealize.ShloMosaic.StableHlo Idealize.ShloMosaic.ValueIdx Cert.SentSim

/-- A word below 256 is not negative as a signed word: the signed compare with 0 answers the bit 0. -/
private theorem slt_zero_of_small (w : BitVec 32) (h : w.toNat < 256) : IntOp.cmpi .slt w 0#32 = 0#1 := by
  apply eq_zero_of_ne_one
  intro h1
  have h2 := (Predicate.slt_iff_toNat (a := w) (b := 0#32) (by omega) (by decide)).mp h1
  simp at h2

/-- Stage %4 (the token, wrapped by 256 when negative) is the token itself for a token word below 256. -/
private theorem v4_tok (x0 : (⟨S32768x2x32, .i32⟩ : BufTy).Contents (Elt Ideal)) (i : S32768x2x32.Idx)
    (h : (x0 i : BitVec 32).toNat < 256) : val_main_v4 (F := Ideal) x0 i = x0 i := by
  rw [val_main_v4_apply, val_main_v1_apply, val_main_v0_apply, val_main_c_apply, slt_zero_of_small _ h, select_zero]

/-- Stage %5 only adds a unit axis: at (b, j, s, 0) it is the token (b, j, s). -/
private theorem v5_tok (x0 : (⟨S32768x2x32, .i32⟩ : BufTy).Contents (Elt Ideal)) (h0 : ∀ i, (x0 i : BitVec 32).toNat < 256)
    (b : Fin 32768) (j : Fin 2) (s : Fin 32) :
    val_main_v5 (F := Ideal) x0 (ix4 b j s (0 : Fin 1)) = x0 (ix3 b j s) := by
  rw [val_main_v5_apply]
  have e : idx_main_v5 (ix4 b j s (0 : Fin 1)) = ix3 b j s := funext fun a => Fin.ext (by
    match a with
    | ⟨0, _⟩ => rfl
    | ⟨1, _⟩ => rfl
    | ⟨2, _⟩ => rfl)
  rw [e]
  exact v4_tok x0 _ (h0 _)

/-- The gather %6, a lookup of table rows: at (b, j, s, d) it is the table at (row named by the start index at
    (b, j, s, 0), d), when that start index is below 256 (there its signed reading is itself and the clamp to
    [0, 255] does nothing). On the table's axis 0 the operand index is the clamped start (the axis is collapsed: no
    offset), on axis 1 it is the result's offset coordinate d (no start: the start index map does not name it). -/
private theorem gather_row (x1 : (⟨S256x16, .f32⟩ : BufTy).Contents (Elt Ideal)) (idx : IVec S32768x2x32x1 32)
    (b : Fin 32768) (j : Fin 2) (s : Fin 32) (d : Fin 16)
    (h : (idx (ix4 b j s (0 : Fin 1))).toNat < 256) :
    Host.gather gather_S256x16_S32768x2x32x1_S32768x2x32x16_3_0_n_n_0_3_116 x1 idx (ix4 b j s d)
      = x1 (ix2 (row (idx (ix4 b j s (0 : Fin 1)))) d) := by
  unfold Host.gather
  congr 1
  funext a
  refine Fin.ext ?_
  match a with
  | ⟨0, _⟩ =>
    show gather_S256x16_S32768x2x32x1_S32768x2x32x16_3_0_n_n_0_3_116.start (ix4 b j s d) idx 0
        + gather_S256x16_S32768x2x32x1_S32768x2x32x16_3_0_n_n_0_3_116.batchCoord (ix4 b j s d) 0
        + gather_S256x16_S32768x2x32x1_S32768x2x32x16_3_0_n_n_0_3_116.offCoord (ix4 b j s d) 0 = (row (idx (ix4 b j s (0 : Fin 1)))).val
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S256x16_S32768x2x32x1_S32768x2x32x16_3_0_n_n_0_3_116.startIndexMap from List.mem_singleton.mpr rfl)]
    have hsi : gather_S256x16_S32768x2x32x1_S32768x2x32x16_3_0_n_n_0_3_116.siIdx (ix4 b j s d)
        ⟨List.idxOf (0 : Fin 2) gather_S256x16_S32768x2x32x1_S32768x2x32x16_3_0_n_n_0_3_116.startIndexMap,
          List.idxOf_lt_length_iff.2 (List.mem_singleton.mpr rfl)⟩ = ix4 b j s (0 : Fin 1) := by
      funext c; refine Fin.ext ?_
      match c with
      | ⟨0, _⟩ => rfl
      | ⟨1, _⟩ => rfl
      | ⟨2, _⟩ => rfl
      | ⟨3, _⟩ => rfl
    rw [hsi, row_val h]
    have hi : (idx (ix4 b j s (0 : Fin 1))).toInt = ((idx (ix4 b j s (0 : Fin 1))).toNat : Int) :=
      Predicate.toInt_eq_toNat_of_lt (by omega)
    rw [hi, Int.toNat_natCast]
    show min (idx (ix4 b j s (0 : Fin 1))).toNat (256 - 1) = _
    omega
  | ⟨1, _⟩ =>
    show gather_S256x16_S32768x2x32x1_S32768x2x32x16_3_0_n_n_0_3_116.start (ix4 b j s d) idx 1
        + gather_S256x16_S32768x2x32x1_S32768x2x32x16_3_0_n_n_0_3_116.batchCoord (ix4 b j s d) 1
        + gather_S256x16_S32768x2x32x1_S32768x2x32x16_3_0_n_n_0_3_116.offCoord (ix4 b j s d) 1 = d.val
    rw [GatherDims.batchCoord_eq_zero _ _ _ List.not_mem_nil]
    unfold GatherDims.start
    rw [dif_neg (show ¬ (1 : Fin 2) ∈ gather_S256x16_S32768x2x32x1_S32768x2x32x16_3_0_n_n_0_3_116.startIndexMap by decide)]
    simp only [Nat.add_zero, Nat.zero_add]
    unfold GatherDims.offCoord
    rw [dif_pos (show (1 : Fin 2) ∈ gather_S256x16_S32768x2x32x1_S32768x2x32x16_3_0_n_n_0_3_116.sKept by decide)]
    rfl

/-- Stage %6 at (b, j, s, d): feature d of the table row the token (b, j, s) names. -/
private theorem v6_look (x0 : (⟨S32768x2x32, .i32⟩ : BufTy).Contents (Elt Ideal)) (x1 : (⟨S256x16, .f32⟩ : BufTy).Contents (Elt Ideal))
    (h0 : ∀ i, (x0 i : BitVec 32).toNat < 256) (b : Fin 32768) (j : Fin 2) (s : Fin 32) (d : Fin 16) :
    val_main_v6 (F := Ideal) x0 x1 (ix4 b j s d) = look (mat x1) (sentOf x0 b j) s d := by
  unfold val_main_v6
  have ht := v5_tok x0 h0 b j s
  rw [gather_row x1 (val_main_v5 (F := Ideal) x0) b j s d (by rw [ht]; exact h0 _), ht]
  rfl

/-- Stage %7, the product with the first 16 × 16 matrix transposed: ∑ d, row(b, j, s, d) * w (e, d). -/
private theorem v7_lin (x0 : (⟨S32768x2x32, .i32⟩ : BufTy).Contents (Elt Ideal)) (x1 : (⟨S256x16, .f32⟩ : BufTy).Contents (Elt Ideal))
    (x2 : (⟨S16x16, .f32⟩ : BufTy).Contents (Elt Ideal)) (h0 : ∀ i, (x0 i : BitVec 32).toNat < 256)
    (b : Fin 32768) (j : Fin 2) (s : Fin 32) (e : Fin 16) :
    val_main_v7 (F := Ideal) x0 x1 x2 (ix4 b j s e) = lin (mat x2) (look (mat x1) (sentOf x0 b j)) s e := by
  rw [val_main_v7_apply]
  unfold lin
  refine Finset.sum_congr rfl fun k _ => ?_
  have el : lidx_main_v7 (ix4 b j s e) k = ix4 b j s k := funext fun a => Fin.ext (by
    match a with
    | ⟨0, _⟩ => rfl
    | ⟨1, _⟩ => rfl
    | ⟨2, _⟩ => rfl
    | ⟨3, _⟩ => rfl)
  have er : ridx_main_v7 (ix4 b j s e) k = ix2 e k := funext fun a => Fin.ext (by
    match a with
    | ⟨0, _⟩ => rfl
    | ⟨1, _⟩ => rfl)
  rw [el, er, v6_look x0 x1 h0]
  rfl

/-- Stage %8, the same product with the second matrix. -/
private theorem v8_lin (x0 : (⟨S32768x2x32, .i32⟩ : BufTy).Contents (Elt Ideal)) (x1 : (⟨S256x16, .f32⟩ : BufTy).Contents (Elt Ideal))
    (x3 : (⟨S16x16, .f32⟩ : BufTy).Contents (Elt Ideal)) (h0 : ∀ i, (x0 i : BitVec 32).toNat < 256)
    (b : Fin 32768) (j : Fin 2) (s : Fin 32) (e : Fin 16) :
    val_main_v8 (F := Ideal) x0 x1 x3 (ix4 b j s e) = lin (mat x3) (look (mat x1) (sentOf x0 b j)) s e := by
  rw [val_main_v8_apply]
  unfold lin
  refine Finset.sum_congr rfl fun k _ => ?_
  have el : lidx_main_v8 (ix4 b j s e) k = ix4 b j s k := funext fun a => Fin.ext (by
    match a with
    | ⟨0, _⟩ => rfl
    | ⟨1, _⟩ => rfl
    | ⟨2, _⟩ => rfl
    | ⟨3, _⟩ => rfl)
  have er : ridx_main_v8 (ix4 b j s e) k = ix2 e k := funext fun a => Fin.ext (by
    match a with
    | ⟨0, _⟩ => rfl
    | ⟨1, _⟩ => rfl)
  rw [el, er, v6_look x0 x1 h0]
  rfl

/-- The values of sentence `j` of row `b` in the reference's stage %9 (position `t`, feature `e`). -/
theorem v9_apply (x0 : (⟨S32768x2x32, .i32⟩ : BufTy).Contents (Elt Ideal)) (x1 : (⟨S256x16, .f32⟩ : BufTy).Contents (Elt Ideal))
    (x4 : (⟨S16x16, .f32⟩ : BufTy).Contents (Elt Ideal)) (h0 : ∀ i, (x0 i : BitVec 32).toNat < 256)
    (b : Fin 32768) (j : Fin 2) (t : Fin 32) (e : Fin 16) :
    val_main_v9 (F := Ideal) x0 x1 x4 (ix4 b j t e) = sentVal (mat x1) (mat x4) (sentOf x0 b j) t e := by
  rw [val_main_v9_apply]
  unfold sentVal lin
  refine Finset.sum_congr rfl fun k _ => ?_
  have el : lidx_main_v9 (ix4 b j t e) k = ix4 b j t k := funext fun a => Fin.ext (by
    match a with
    | ⟨0, _⟩ => rfl
    | ⟨1, _⟩ => rfl
    | ⟨2, _⟩ => rfl
    | ⟨3, _⟩ => rfl)
  have er : ridx_main_v9 (ix4 b j t e) k = ix2 e k := funext fun a => Fin.ext (by
    match a with
    | ⟨0, _⟩ => rfl
    | ⟨1, _⟩ => rfl)
  rw [el, er, v6_look x0 x1 h0]
  rfl

/-- Stage %12, the scaled scores: (∑ e, q (s, e) * k (t, e)) times the word of 0.25, with q and k the stages %7 and %8
    (the product %10 contracts the feature axis and keeps b and j as batch axes). -/
private theorem v12_score (x0 : (⟨S32768x2x32, .i32⟩ : BufTy).Contents (Elt Ideal)) (x1 : (⟨S256x16, .f32⟩ : BufTy).Contents (Elt Ideal))
    (x2 x3 : (⟨S16x16, .f32⟩ : BufTy).Contents (Elt Ideal)) (h0 : ∀ i, (x0 i : BitVec 32).toNat < 256)
    (b : Fin 32768) (j : Fin 2) (s t : Fin 32) :
    val_main_v12 (F := Ideal) x0 x1 x2 x3 (ix4 b j s t)
      = score (lin (mat x2) (look (mat x1) (sentOf x0 b j))) (lin (mat x3) (look (mat x1) (sentOf x0 b j))) s t := by
  rw [val_main_v12_apply, val_main_v11_apply, val_main_cst_apply, val_main_v10_apply]
  have e : (∑ k : Fin 16, (val_main_v7 (F := Ideal) x0 x1 x2) (lidx_main_v10 (ix4 b j s t) k)
        * (val_main_v8 (F := Ideal) x0 x1 x3) (ridx_main_v10 (ix4 b j s t) k))
      = ∑ k : Fin 16, lin (mat x2) (look (mat x1) (sentOf x0 b j)) s k * lin (mat x3) (look (mat x1) (sentOf x0 b j)) t k := by
    refine Finset.sum_congr rfl fun k _ => ?_
    have el : lidx_main_v10 (ix4 b j s t) k = ix4 b j s k := funext fun a => Fin.ext (by
      match a with
      | ⟨0, _⟩ => rfl
      | ⟨1, _⟩ => rfl
      | ⟨2, _⟩ => rfl
      | ⟨3, _⟩ => rfl)
    have er : ridx_main_v10 (ix4 b j s t) k = ix4 b j t k := funext fun a => Fin.ext (by
      match a with
      | ⟨0, _⟩ => rfl
      | ⟨1, _⟩ => rfl
      | ⟨2, _⟩ => rfl
      | ⟨3, _⟩ => rfl)
    rw [el, er, v7_lin x0 x1 x2 h0, v8_lin x0 x1 x3 h0]
  rw [e]
  rfl

/-- The reduced index (b, j, s) with the coordinate k put back on the last axis is (b, j, s, k). -/
private theorem lift_last (h : S32768x2x32x32.Reduces [3] S32768x2x32) (b : Fin 32768) (j : Fin 2) (s : Fin 32)
    (k : Fin (S32768x2x32x32.size 3)) : h.lift (ix3 b j s) k = ix4 b j s (⟨k.val, k.isLt⟩ : Fin 32) := by
  funext c; refine Fin.ext ?_
  match c with
  | ⟨0, _⟩ => rfl
  | ⟨1, _⟩ => rfl
  | ⟨2, _⟩ => rfl
  | ⟨3, _⟩ => rfl

/-- The reduce %13 with a maximum body over the last axis, from the word of -∞: at (b, j, s) the fold of max from that
    word over the 32 entries (b, j, s, ·) of its operand. -/
private theorem reduce_max_last (y : FVec Ideal S32768x2x32x32 .f32) (b : Fin 32768) (j : Fin 2) (s : Fin 32) :
    Host.reduce FloatOps.maximumf y (val_main_cst_1 (F := Ideal)) reducesTo_S32768x2x32x32_S32768x2x32_d3 h_S_ (ix3 b j s)
      = (Finset.univ : Finset (Fin 32)).fold max (Ideal.ofBits .f32 0xFF800000#32) (fun t : Fin 32 => y (ix4 b j s t)) := by
  have hR : S32768x2x32x32.Reduces [3] S32768x2x32 := by decide
  refine (Host.reduce_eq_fold_single FloatOps.maximumf y (val_main_cst_1 (F := Ideal)) reducesTo_S32768x2x32x32_S32768x2x32_d3 hR h_S_
    (ix3 b j s)).trans ?_
  have hf : (y ∘ hR.lift (ix3 b j s)) = fun t : Fin 32 => y (ix4 b j s t) := funext fun k => congrArg y (lift_last hR b j s k)
  exact congrArg (fun f => Finset.fold max (Ideal.ofBits .f32 0xFF800000#32) f (Finset.univ : Finset (Fin 32))) hf

/-- Stage %15, the row maximum: max of the word of -∞ with the fold %13 of the scores' row. -/
private theorem v15_rowMax (x0 : (⟨S32768x2x32, .i32⟩ : BufTy).Contents (Elt Ideal)) (x1 : (⟨S256x16, .f32⟩ : BufTy).Contents (Elt Ideal))
    (x2 x3 : (⟨S16x16, .f32⟩ : BufTy).Contents (Elt Ideal)) (h0 : ∀ i, (x0 i : BitVec 32).toNat < 256)
    (b : Fin 32768) (j : Fin 2) (s : Fin 32) :
    val_main_v15 (F := Ideal) x0 x1 x2 x3 (ix3 b j s)
      = rowMax (score (lin (mat x2) (look (mat x1) (sentOf x0 b j))) (lin (mat x3) (look (mat x1) (sentOf x0 b j)))) s := by
  rw [val_main_v15_apply, val_main_v14_apply, val_main_cst_2_apply]
  unfold val_main_v13
  rw [reduce_max_last (val_main_v12 (F := Ideal) x0 x1 x2 x3) b j s]
  have e : (fun t : Fin 32 => val_main_v12 (F := Ideal) x0 x1 x2 x3 (ix4 b j s t))
      = score (lin (mat x2) (look (mat x1) (sentOf x0 b j))) (lin (mat x3) (look (mat x1) (sentOf x0 b j))) s :=
    funext fun t => v12_score x0 x1 x2 x3 h0 b j s t
  rw [e]
  rfl

/-- The shifted scores of sentence `j` of row `b` in the reference's stage %18 (query position `s`, key position `t`). -/
theorem v18_apply (x0 : (⟨S32768x2x32, .i32⟩ : BufTy).Contents (Elt Ideal)) (x1 : (⟨S256x16, .f32⟩ : BufTy).Contents (Elt Ideal))
    (x2 x3 : (⟨S16x16, .f32⟩ : BufTy).Contents (Elt Ideal)) (h0 : ∀ i, (x0 i : BitVec 32).toNat < 256)
    (b : Fin 32768) (j : Fin 2) (s t : Fin 32) :
    val_main_v18 (F := Ideal) x0 x1 x2 x3 (ix4 b j s t) = sentShift (mat x1) (mat x2) (mat x3) (sentOf x0 b j) s t := by
  rw [val_main_v18_apply, val_main_v17_apply, val_main_v16_apply]
  have e : idx_main_v16 (idx_main_v17 (ix4 b j s t)) = ix3 b j s := funext fun a => Fin.ext (by
    match a with
    | ⟨0, _⟩ => rfl
    | ⟨1, _⟩ => rfl
    | ⟨2, _⟩ => rfl)
  rw [e, v15_rowMax x0 x1 x2 x3 h0, v12_score x0 x1 x2 x3 h0]
  rfl

end Cert.ReferenceIdeal.Front

end
-- ==== Proof.RefBack.lean ====
import proofs.«406272_j1443109012058_2_alg».proof.Proof.Spec
import proofs.«406272_j1443109012058_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.Back

open Cert.ReferenceIdeal Cert.ReferenceIdeal.Gen Cert.ReferenceIdeal.Read Idealize.ShloMosaic Idealize.ShloMosaic.TcCoe Idealize.ShloMosaic.StableHlo Idealize.ShloMosaic.ValueIdx Cert.SentSim

/-! From the shifted scores and the values of one sentence to the row's similarity, stage by stage. Each stage reads one
    array of the reference at explicit coordinates (row `b`, sentence `j`, position, feature) and names it as the
    specification's function of the previous stage read the same way. -/

section Stages

variable (x0 : (⟨S32768x2x32, .i32⟩ : BufTy).Contents (Elt Ideal)) (x1 : (⟨S256x16, .f32⟩ : BufTy).Contents (Elt Ideal))
  (x2 x3 x4 x5 : (⟨S16x16, .f32⟩ : BufTy).Contents (Elt Ideal)) (x6 : (⟨S16, .f32⟩ : BufTy).Contents (Elt Ideal))
  (x7 : (⟨S16x16, .f32⟩ : BufTy).Contents (Elt Ideal)) (x8 : (⟨S16, .f32⟩ : BufTy).Contents (Elt Ideal))

/-- The softmax: the exponential of a shifted score divided by its row's sum of exponentials. The row sum starts from the
    word of 0.0, which is 0, and is broadcast back along the key axis through a unit axis. -/
private theorem v23_fun (b : Fin 32768) (j : Fin 2) :
    (fun (s t : Fin 32) => val_main_v23 (F := Ideal) x0 x1 x2 x3 (ix4 b j s t))
      = softm (fun s t => val_main_v18 (F := Ideal) x0 x1 x2 x3 (ix4 b j s t)) := by
  funext s t
  have e1 : idx_main_v21 (idx_main_v22 (ix4 b j s t)) = ix3 b j s :=
    funext fun a => Fin.ext (by match a with | ⟨0, _⟩ => rfl | ⟨1, _⟩ => rfl | ⟨2, _⟩ => rfl)
  have e2 : ∀ k : Fin 32, idx_main_v20 (ix3 b j s) k = ix4 b j s k := fun k =>
    funext fun a => Fin.ext (by match a with | ⟨0, _⟩ => rfl | ⟨1, _⟩ => rfl | ⟨2, _⟩ => rfl | ⟨3, _⟩ => rfl)
  rw [val_main_v23_apply, val_main_v22_apply, val_main_v21_apply, e1, val_main_v20_apply]
  simp only [e2, val_main_v19_apply, val_main_cst_3_apply, Ideal.hostUnary_exp_def, Ideal.hostDivf_def, Ideal.ofBits_def,
    Ideal.ofBits_zero_f32, zero_add]
  rfl

/-- The mixing: the batched product contracts the key axis of the weights with the position axis of the values. -/
private theorem v24_fun (b : Fin 32768) (j : Fin 2) :
    (fun (s : Fin 32) (e : Fin 16) => val_main_v24 (F := Ideal) x0 x1 x2 x3 x4 (ix4 b j s e))
      = mix (fun s t => val_main_v23 (F := Ideal) x0 x1 x2 x3 (ix4 b j s t))
          (fun t e => val_main_v9 (F := Ideal) x0 x1 x4 (ix4 b j t e)) := by
  funext s e
  rw [val_main_v24_apply]
  unfold mix
  refine Finset.sum_congr rfl fun k _ => ?_
  have el : lidx_main_v24 (ix4 b j s e) k = ix4 b j s k :=
    funext fun a => Fin.ext (by match a with | ⟨0, _⟩ => rfl | ⟨1, _⟩ => rfl | ⟨2, _⟩ => rfl | ⟨3, _⟩ => rfl)
  have er : ridx_main_v24 (ix4 b j s e) k = ix4 b j k e :=
    funext fun a => Fin.ext (by match a with | ⟨0, _⟩ => rfl | ⟨1, _⟩ => rfl | ⟨2, _⟩ => rfl | ⟨3, _⟩ => rfl)
  rw [el, er]

/-- The hidden layer: the product with the transposed first matrix, the bias broadcast over rows, sentences and
    positions, and the maximum with the word of 0.0. -/
private theorem v29_fun (b : Fin 32768) (j : Fin 2) :
    (fun (s : Fin 32) (e : Fin 16) => val_main_v29 (F := Ideal) x0 x1 x2 x3 x4 x5 x6 (ix4 b j s e))
      = hidden (mat x5) (vec x6) (fun s e => val_main_v24 (F := Ideal) x0 x1 x2 x3 x4 (ix4 b j s e)) := by
  funext s e
  have eb : idx_main_v26 (idx_main_v27 (ix4 b j s e)) = ix1 e :=
    funext fun a => Fin.ext (by match a with | ⟨0, _⟩ => rfl)
  have el : ∀ k : Fin 16, lidx_main_v25 (ix4 b j s e) k = ix4 b j s k := fun k =>
    funext fun a => Fin.ext (by match a with | ⟨0, _⟩ => rfl | ⟨1, _⟩ => rfl | ⟨2, _⟩ => rfl | ⟨3, _⟩ => rfl)
  have er : ∀ k : Fin 16, ridx_main_v25 (ix4 b j s e) k = ix2 e k := fun k =>
    funext fun a => Fin.ext (by match a with | ⟨0, _⟩ => rfl | ⟨1, _⟩ => rfl)
  rw [val_main_v29_apply, val_main_v28_apply, val_main_v25_apply, val_main_v27_apply, val_main_v26_apply, eb,
    val_main_call0_v0_apply, val_main_call0_cst_apply]
  simp only [el, er, Ideal.maximumf_def, Ideal.addf_def, Ideal.ofBits_def]
  rfl

/-- The output layer: the product with the transposed second matrix plus the broadcast bias. -/
private theorem v33_fun (b : Fin 32768) (j : Fin 2) :
    (fun (s : Fin 32) (e : Fin 16) => val_main_v33 (F := Ideal) x0 x1 x2 x3 x4 x5 x6 x7 x8 (ix4 b j s e))
      = outp (mat x7) (vec x8) (fun s e => val_main_v29 (F := Ideal) x0 x1 x2 x3 x4 x5 x6 (ix4 b j s e)) := by
  funext s e
  have eb : idx_main_v31 (idx_main_v32 (ix4 b j s e)) = ix1 e :=
    funext fun a => Fin.ext (by match a with | ⟨0, _⟩ => rfl)
  have el : ∀ k : Fin 16, lidx_main_v30 (ix4 b j s e) k = ix4 b j s k := fun k =>
    funext fun a => Fin.ext (by match a with | ⟨0, _⟩ => rfl | ⟨1, _⟩ => rfl | ⟨2, _⟩ => rfl | ⟨3, _⟩ => rfl)
  have er : ∀ k : Fin 16, ridx_main_v30 (ix4 b j s e) k = ix2 e k := fun k =>
    funext fun a => Fin.ext (by match a with | ⟨0, _⟩ => rfl | ⟨1, _⟩ => rfl)
  rw [val_main_v33_apply, val_main_v30_apply, val_main_v32_apply, val_main_v31_apply, eb]
  simp only [el, er, Ideal.addf_def]
  rfl

/-- The mean: the sum over the 32 positions, started from the word of 0.0, divided by the word of 32. -/
private theorem v36_fun (b : Fin 32768) (j : Fin 2) :
    (fun (e : Fin 16) => val_main_v36 (F := Ideal) x0 x1 x2 x3 x4 x5 x6 x7 x8 (ix3 b j e))
      = meanv (fun s e => val_main_v33 (F := Ideal) x0 x1 x2 x3 x4 x5 x6 x7 x8 (ix4 b j s e)) := by
  funext e
  have es : ∀ k : Fin 32, idx_main_v34 (ix3 b j e) k = ix4 b j k e := fun k =>
    funext fun a => Fin.ext (by match a with | ⟨0, _⟩ => rfl | ⟨1, _⟩ => rfl | ⟨2, _⟩ => rfl | ⟨3, _⟩ => rfl)
  rw [val_main_v36_apply, val_main_v34_apply, val_main_v35_apply, val_main_cst_5_apply, val_main_cst_4_apply]
  simp only [es, Ideal.hostDivf_def, Ideal.ofBits_def, Ideal.ofBits_zero_f32, zero_add]
  rfl

/-- The encoding of sentence `j` of row `b`: the five stages composed. -/
private theorem v36_tail (b : Fin 32768) (j : Fin 2) :
    (fun (e : Fin 16) => val_main_v36 (F := Ideal) x0 x1 x2 x3 x4 x5 x6 x7 x8 (ix3 b j e))
      = tail (mat x5) (vec x6) (mat x7) (vec x8) (fun s t => val_main_v18 (F := Ideal) x0 x1 x2 x3 (ix4 b j s t))
          (fun t e => val_main_v9 (F := Ideal) x0 x1 x4 (ix4 b j t e)) := by
  rw [v36_fun, v33_fun, v29_fun, v24_fun, v23_fun]
  rfl

/-- The first sentence's encoding as a [rows, 16] array: the slice at sentence 0 and the reshape that drops the unit axis
    (row-major position `16 b + e` of [rows, 1, 16] is row `b`, feature `e`). -/
private theorem v38_at (b : Fin 32768) (e : Fin 16) :
    val_main_v38 (F := Ideal) x0 x1 x2 x3 x4 x5 x6 x7 x8 (ix2 b e)
      = val_main_v36 (F := Ideal) x0 x1 x2 x3 x4 x5 x6 x7 x8 (ix3 b (0 : Fin 2) e) := by
  have h : idx_main_v37 (idx_main_v38 (ix2 b e)) = ix3 b (0 : Fin 2) e := funext fun a => Fin.ext (by
    have hb := b.isLt
    have he := e.isLt
    match a with
    | ⟨0, _⟩ => show (b.val * 16 + e.val) / 16 = b.val; omega
    | ⟨1, _⟩ => rfl
    | ⟨2, _⟩ => show (b.val * 16 + e.val) % 16 = e.val; omega)
  rw [val_main_v38_apply, val_main_v37_apply, h]

/-- The second sentence's encoding likewise: the slice at sentence 1. -/
private theorem v40_at (b : Fin 32768) (e : Fin 16) :
    val_main_v40 (F := Ideal) x0 x1 x2 x3 x4 x5 x6 x7 x8 (ix2 b e)
      = val_main_v36 (F := Ideal) x0 x1 x2 x3 x4 x5 x6 x7 x8 (ix3 b (1 : Fin 2) e) := by
  have h : idx_main_v39 (idx_main_v40 (ix2 b e)) = ix3 b (1 : Fin 2) e := funext fun a => Fin.ext (by
    have hb := b.isLt
    have he := e.isLt
    match a with
    | ⟨0, _⟩ => show (b.val * 16 + e.val) / 16 = b.val; omega
    | ⟨1, _⟩ => rfl
    | ⟨2, _⟩ => show (b.val * 16 + e.val) % 16 = e.val; omega)
  rw [val_main_v40_apply, val_main_v39_apply, h]

/-- The similarity of the two encodings: the dot product and the two sums of squares (each started from the word of
    0.0), the square roots, the product of the norms plus the word of 1e-8, the quotient, plus 1, divided by 2. -/
private theorem v52_sim (b : Fin 32768) :
    val_main_v52 (F := Ideal) x0 x1 x2 x3 x4 x5 x6 x7 x8 (ix1 b)
      = simDiv (fun e => val_main_v36 (F := Ideal) x0 x1 x2 x3 x4 x5 x6 x7 x8 (ix3 b (0 : Fin 2) e))
          (fun e => val_main_v36 (F := Ideal) x0 x1 x2 x3 x4 x5 x6 x7 x8 (ix3 b (1 : Fin 2) e)) := by
  have ed : ∀ k : Fin 16, idx_main_v42 (ix1 b) k = ix2 b k := fun k =>
    funext fun a => Fin.ext (by match a with | ⟨0, _⟩ => rfl | ⟨1, _⟩ => rfl)
  have en1 : ∀ k : Fin 16, idx_main_call1_v1 (ix1 b) k = ix2 b k := fun k =>
    funext fun a => Fin.ext (by match a with | ⟨0, _⟩ => rfl | ⟨1, _⟩ => rfl)
  have en2 : ∀ k : Fin 16, idx_main_call2_v1 (ix1 b) k = ix2 b k := fun k =>
    funext fun a => Fin.ext (by match a with | ⟨0, _⟩ => rfl | ⟨1, _⟩ => rfl)
  rw [val_main_v52_apply, val_main_v51_apply, val_main_cst_9_apply, val_main_v50_apply, val_main_v49_apply,
    val_main_cst_8_apply, val_main_v48_apply, val_main_v47_apply, val_main_v46_apply, val_main_cst_7_apply,
    val_main_v45_apply, val_main_v44_apply, val_main_v43_apply, val_main_v42_apply, val_main_call1_v1_apply,
    val_main_call2_v1_apply, val_main_cst_6_apply, val_main_call1_cst_apply, val_main_call2_cst_apply]
  simp only [ed, en1, en2, val_main_v41_apply, val_main_call1_v0_apply, val_main_call2_v0_apply, v38_at, v40_at,
    Ideal.hostDivf_def, Ideal.hostUnary_sqrt_def, Ideal.addf_def, Ideal.mulf_def, Ideal.ofBits_def,
    Ideal.ofBits_zero_f32, zero_add]
  rfl

end Stages

/-- From the reference's values (%9) and shifted scores (%18) to its result (%52) at row `b`. -/
theorem v52_apply (x0 : (⟨S32768x2x32, .i32⟩ : BufTy).Contents (Elt Ideal)) (x1 : (⟨S256x16, .f32⟩ : BufTy).Contents (Elt Ideal))
    (x2 x3 x4 x5 : (⟨S16x16, .f32⟩ : BufTy).Contents (Elt Ideal)) (x6 : (⟨S16, .f32⟩ : BufTy).Contents (Elt Ideal))
    (x7 : (⟨S16x16, .f32⟩ : BufTy).Contents (Elt Ideal)) (x8 : (⟨S16, .f32⟩ : BufTy).Contents (Elt Ideal)) (b : Fin 32768) :
    val_main_v52 (F := Ideal) x0 x1 x2 x3 x4 x5 x6 x7 x8 (ix1 b)
      = simDiv
          (tail (mat x5) (vec x6) (mat x7) (vec x8) (fun s t => val_main_v18 (F := Ideal) x0 x1 x2 x3 (ix4 b 0 s t))
            (fun t e => val_main_v9 (F := Ideal) x0 x1 x4 (ix4 b 0 t e)))
          (tail (mat x5) (vec x6) (mat x7) (vec x8) (fun s t => val_main_v18 (F := Ideal) x0 x1 x2 x3 (ix4 b 1 s t))
            (fun t e => val_main_v9 (F := Ideal) x0 x1 x4 (ix4 b 1 t e))) := by
  rw [v52_sim, v36_tail x0 x1 x2 x3 x4 x5 x6 x7 x8 b 0, v36_tail x0 x1 x2 x3 x4 x5 x6 x7 x8 b 1]

end Cert.ReferenceIdeal.Back

end
-- ==== Proof.RefRow.lean ====
/-
  One row of the reference's result, whole: the similarity of the encodings of the row's two sentences, with the last
  step a quotient by 2. The reference's values and shifted scores of a sentence are put under the rest of its
  operations, sentence by sentence.
-/
import proofs.«406272_j1443109012058_2_alg».proof.Proof.RefFront
import proofs.«406272_j1443109012058_2_alg».proof.Proof.RefBack

noncomputable section

namespace Cert.ReferenceIdeal.Row

open Cert.ReferenceIdeal Cert.ReferenceIdeal.Gen Cert.ReferenceIdeal.Read Idealize.ShloMosaic Idealize.ShloMosaic.TcCoe Idealize.ShloMosaic.StableHlo Idealize.ShloMosaic.ValueIdx Cert.SentSim

/-- The reference's result at row `b`, for token words in range: `simDiv` of the two sentences' encodings. -/
theorem row_apply (x0 : (⟨S32768x2x32, .i32⟩ : BufTy).Contents (Elt Ideal)) (x1 : (⟨S256x16, .f32⟩ : BufTy).Contents (Elt Ideal))
    (x2 x3 x4 x5 : (⟨S16x16, .f32⟩ : BufTy).Contents (Elt Ideal)) (x6 : (⟨S16, .f32⟩ : BufTy).Contents (Elt Ideal))
    (x7 : (⟨S16x16, .f32⟩ : BufTy).Contents (Elt Ideal)) (x8 : (⟨S16, .f32⟩ : BufTy).Contents (Elt Ideal))
    (h0 : ∀ i, (x0 i : BitVec 32).toNat < 256) (b : Fin 32768) :
    val_main_v52 (F := Ideal) x0 x1 x2 x3 x4 x5 x6 x7 x8 (ix1 b)
      = simDiv (enc (mat x1) (mat x2) (mat x3) (mat x4) (mat x5) (vec x6) (mat x7) (vec x8) (sentOf x0 b 0))
          (enc (mat x1) (mat x2) (mat x3) (mat x4) (mat x5) (vec x6) (mat x7) (vec x8) (sentOf x0 b 1)) := by
  refine (Back.v52_apply x0 x1 x2 x3 x4 x5 x6 x7 x8 b).trans ?_
  have hs : ∀ j : Fin 2, (fun s t => val_main_v18 (F := Ideal) x0 x1 x2 x3 (ix4 b j s t))
      = sentShift (mat x1) (mat x2) (mat x3) (sentOf x0 b j) :=
    fun j => funext fun s => funext fun t => Front.v18_apply x0 x1 x2 x3 h0 b j s t
  have hv : ∀ j : Fin 2, (fun t e => val_main_v9 (F := Ideal) x0 x1 x4 (ix4 b j t e))
      = sentVal (mat x1) (mat x4) (sentOf x0 b j) :=
    fun j => funext fun t => funext fun e => Front.v9_apply x0 x1 x4 h0 b j t e
  rw [hs 0, hv 0, hs 1, hv 1]
  rfl

end Cert.ReferenceIdeal.Row

end
-- ==== Proof.lean ====
/-
  The certificate's claim. The kernel looks 32768 × 2 sentences of 32 tokens up in a 256-row table by a one-hot
  matrix product, encodes each sentence by one attention layer and a two-layer perceptron averaged over the positions,
  and returns for each row the cosine similarity of its two encodings mapped to [0, 1]; the reference does the same with
  a gather. Over the extended reals, for token words in [0, 256) (the rows the table has: outside that range the gather
  clamps or wraps where the one-hot row is zero), both end at ONE function of the argument arrays: at row b,
  ((u · v) / (‖u‖ ‖v‖ + 1e-8) + 1) / 2 of the encodings u, v of the row's sentences. The kernel's last step multiplies
  by 0.5 where the reference divides by 2, which is the same on every extended real.
  The three frames are the generated ones (the reference's is its generated run with the result dropped); the
  idealization rewrote nothing, so nothing is to be preserved.
-/
import proofs.«406272_j1443109012058_2_alg».proof.Defs
import proofs.«406272_j1443109012058_2_alg».proof.Proof.Gen.Kernel
import proofs.«406272_j1443109012058_2_alg».proof.Proof.Gen.Kernel.Skeleton
import proofs.«406272_j1443109012058_2_alg».proof.Proof.Gen.Kernel.Launch
import proofs.«406272_j1443109012058_2_alg».proof.Proof.Gen.Kernel.Points
import proofs.«406272_j1443109012058_2_alg».proof.Proof.Gen.Kernel.Frame
import proofs.«406272_j1443109012058_2_alg».proof.Proof.Gen.KernelIdeal
import proofs.«406272_j1443109012058_2_alg».proof.Proof.Gen.KernelIdeal.Skeleton
import proofs.«406272_j1443109012058_2_alg».proof.Proof.Gen.KernelIdeal.Launch
import proofs.«406272_j1443109012058_2_alg».proof.Proof.Gen.KernelIdeal.Points
import proofs.«406272_j1443109012058_2_alg».proof.Proof.Gen.KernelIdeal.Frame
import proofs.«406272_j1443109012058_2_alg».proof.Proof.Gen.ReferenceIdeal
import proofs.«406272_j1443109012058_2_alg».proof.Proof.Gen.Pre_finite_inputs
import proofs.«406272_j1443109012058_2_alg».proof.Proof.Gen.KernelIdeal.Value
import proofs.«406272_j1443109012058_2_alg».proof.Proof.Gen.ReferenceIdeal.Run
import proofs.«406272_j1443109012058_2_alg».proof.Proof.Gen.ReferenceIdeal.Read
import proofs.«406272_j1443109012058_2_alg».proof.Proof.PreTok
import proofs.«406272_j1443109012058_2_alg».proof.Proof.KerWhole
import proofs.«406272_j1443109012058_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx Cert.SentSim

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the same function of the argument arrays: row by row the similarity of the
    two sentences' encodings, the kernel's written with a product by 0.5 and the reference's with a quotient by 2. -/
theorem algebraic : Cert.algebraic_KernelIdeal_ReferenceIdeal := by
  intro m ρ m' ρ' hpre hagree
  have htok : ∀ (c : Dev Cert.KernelIdeal.nD) i, (Cert.KernelIdeal.Whole.tokA m c i : BitVec 32).toNat < 256 :=
    fun c i => Cert.Pre_finite_inputs.Tok.tok_lt (F := Ideal) _ _ _ _ _ _ _ _ _ (hpre c) i
  refine ⟨_, Cert.KernelIdeal.Whole.run m ρ htok, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨a0, a1, a2, a3, a4, a5, a6, a7, a8⟩ := hagree c
  rw [a0, a1, a2, a3, a4, a5, a6, a7, a8]
  funext i
  obtain ⟨b, rfl⟩ : ∃ b : Fin 32768, i = ix1 b := ⟨i 0, eq_ix1 i⟩
  refine (Cert.ReferenceIdeal.Row.row_apply _ _ _ _ _ _ _ _ _ (htok c) b).trans ?_
  exact (simMul_eq_simDiv _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
